-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x256 : Shape := ⟨2, ![2, 256]⟩
abbrev S2 : Shape := ⟨1, ![2]⟩
abbrev S640000x2 : Shape := ⟨2, ![640000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S640000x2 : S_.BroadcastsInDim S640000x2 (![] : Fin 0 → Fin S640000x2.rank)
  reducesTo_S640000x2_S_d0_1 : S640000x2.ReducesTo [0, 1] S_

variable [Facts]

def fn_part1 {F : FTy → Type} [FloatOps F] (main_arg3 : IVec S640000x2 32) (main_v13 : IVec S_ 1) (main_v15 : IVec S640000x2 1) (main_c_5 : IVec S_ 32) : IVec S_ 1 :=
  let main_v16 : IVec S640000x2 32 := broadcastInDim S640000x2 ![] bcast_S_S640000x2 main_c_5
  let main_v17 : IVec S640000x2 1 := cmpi .slt main_arg3 main_v16
  let main_v18 : IVec S640000x2 1 := andi main_v15 main_v17
  let main_c_6 : IVec S_ 1 := constantI S_ 1 1#1
  let main_v19 : IVec S_ 1 := (fun x v => Host.reduce IntOp.andi x v reducesTo_S640000x2_S_d0_1 h_S_) main_v18 main_c_6
  let main_v20 : IVec S_ 1 := andi main_v13 main_v19
  main_v20

def fn {F : FTy → Type} [FloatOps F] (main_arg0 : FVec F S50000x128 .f32) (main_arg1 : FVec F S2x256 .f32) (main_arg2 : FVec F S2 .f32) (main_arg3 : IVec S640000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S640000x2 32 := broadcastInDim S640000x2 ![] bcast_S_S640000x2 main_c_4
  let main_v15 : IVec S640000x2 1 := cmpi .sge main_arg3 main_v14
  let main_c_5 : IVec S_ 32 := constantI S_ 32 50000#32
  fn_part1 (F := F) main_arg3 main_v13 main_v15 main_c_5
-- ==== Kernel.lean ====
abbrev S50000x128 : Shape := ⟨2, ![50000, 128]⟩
abbrev S2x256 : Shape := ⟨2, ![2, 256]⟩
abbrev S2 : Shape := ⟨1, ![2]⟩
abbrev S640000x2 : Shape := ⟨2, ![640000, 2]⟩
abbrev S1x128 : Shape := ⟨2, ![1, 128]⟩
abbrev S128 : Shape := ⟨1, ![128]⟩
abbrev S128x1 : Shape := ⟨2, ![128, 1]⟩
abbrev S128x2 : Shape := ⟨2, ![128, 2]⟩
abbrev S1 : Shape := ⟨1, ![1]⟩
abbrev S_ : Shape := ⟨0, ![]⟩
abbrev S640000x1 : Shape := ⟨2, ![640000, 1]⟩
abbrev S640000 : Shape := ⟨1, ![640000]⟩
abbrev S50000x2 : Shape := ⟨2, ![50000, 2]⟩
abbrev S10000x128 : Shape := ⟨2, ![10000, 128]⟩
abbrev S10000x2 : Shape := ⟨2, ![10000, 2]⟩
abbrev S50000x1 : Shape := ⟨2, ![50000, 1]⟩
abbrev S50000 : Shape := ⟨1, ![50000]⟩
abbrev S1x1 : Shape := ⟨2, ![1, 1]⟩
abbrev S5000x128 : Shape := ⟨2, ![5000, 128]⟩
abbrev S1000x128 : Shape := ⟨2, ![1000, 128]⟩

abbrev nBuf : Space → Nat
  | .hbm => 102
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x256, .f32⟩
  | .hbm, ⟨2, _⟩ => ⟨S2, .f32⟩
  | .hbm, ⟨3, _⟩ => ⟨S640000x2, .i32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S128x1, .f32⟩
  | .hbm, ⟨15, _⟩ => ⟨S128x1, .f32⟩
  | .hbm, ⟨16, _⟩ => ⟨S128x2, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S640000x1, .i32⟩
  | .hbm, ⟨23, _⟩ => ⟨S640000, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S50000x2, .f32⟩
  | .hbm, ⟨43, _⟩ => ⟨S50000x1, .f32⟩
  | .hbm, ⟨44, _⟩ => ⟨S50000, .f32⟩
  | .hbm, ⟨45, _⟩ => ⟨S50000x1, .f32⟩
  | .hbm, ⟨46, _⟩ => ⟨S50000, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S1, .i32⟩
  | .hbm, ⟨56, _⟩ => ⟨S_, .i32⟩
  | .hbm, ⟨57, _⟩ => ⟨S640000x1, .i32⟩
  | .hbm, ⟨58, _⟩ => ⟨S640000x1, .i1⟩
  | .hbm, ⟨59, _⟩ => ⟨S1x1, .i32⟩
  | .hbm, ⟨60, _⟩ => ⟨S640000x1, .i32⟩
  | .hbm, ⟨61, _⟩ => ⟨S640000x1, .i1⟩
  | .hbm, ⟨62, _⟩ => ⟨S640000x1, .i1⟩
  | .hbm, ⟨63, _⟩ => ⟨S_, .i1⟩
  | .hbm, ⟨64, _⟩ => ⟨S640000, .i1⟩
  | .hbm, ⟨65, _⟩ => ⟨S640000, .f32⟩
  | .hbm, ⟨66, _⟩ => ⟨S_, .f32⟩
  | .hbm, ⟨67, _⟩ => ⟨S640000, .f32⟩
  | .hbm, ⟨68, _⟩ => ⟨S640000, .f32⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S1, .i32⟩
  | .hbm, ⟨78, _⟩ => ⟨S_, .i32⟩
  | .hbm, ⟨79, _⟩ => ⟨S640000x1, .i32⟩
  | .hbm, ⟨80, _⟩ => ⟨S640000x1, .i1⟩
  | .hbm, ⟨81, _⟩ => ⟨S1x1, .i32⟩
  | .hbm, ⟨82, _⟩ => ⟨S640000x1, .i32⟩
  | .hbm, ⟨83, _⟩ => ⟨S640000x1, .i1⟩
  | .hbm, ⟨84, _⟩ => ⟨S640000x1, .i1⟩
  | .hbm, ⟨85, _⟩ => ⟨S_, .i1⟩
  | .hbm, ⟨86, _⟩ => ⟨S640000, .i1⟩
  | .hbm, ⟨87, _⟩ => ⟨S640000, .f32⟩
  | .hbm, ⟨88, _⟩ => ⟨S_, .f32⟩
  | .hbm, ⟨89, _⟩ => ⟨S640000, .f32⟩
  | .hbm, ⟨90, _⟩ => ⟨S640000, .f32⟩
  | .hbm, ⟨91, _⟩ => ⟨S640000, .f32⟩
  | .hbm, ⟨92, _⟩ => ⟨S640000, .f32⟩
  | .hbm, ⟨93, _⟩ => ⟨S640000, .f32⟩
  | .hbm, ⟨94, _⟩ => ⟨S5000x128, .f32⟩
  | .hbm, ⟨95, _⟩ => ⟨S5000x128, .f32⟩
  | .hbm, ⟨96, _⟩ => ⟨S5000x128, .f32⟩
  | .hbm, ⟨97, _⟩ => ⟨S640000, .f32⟩
  | .hbm, ⟨98, _⟩ => ⟨S640000, .f32⟩
  | .hbm, ⟨99, _⟩ => ⟨S640000x1, .f32⟩
  | .hbm, ⟨100, _⟩ => ⟨S640000x1, .f32⟩
  | .hbm, ⟨101, _⟩ => ⟨S640000x2, .f32⟩
  | .local _ .vmem, ⟨0, _⟩ => ⟨S10000x128, .f32⟩
  | .local _ .vmem, ⟨1, _⟩ => ⟨S10000x128, .f32⟩
  | .local _ .vmem, ⟨2, _⟩ => ⟨S128x2, .f32⟩
  | .local _ .vmem, ⟨3, _⟩ => ⟨S10000x2, .f32⟩
  | .local _ .vmem, ⟨4, _⟩ => ⟨S10000x2, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_c_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v29 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_cst : Ref sig .tc := ⟨.hbm, 88, rfl⟩
abbrev main_call3_v14 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35_0 : Ref sig .tc := ⟨.hbm, 95, rfl⟩
abbrev main_v35_1 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x256_S1x128_1_0 : S2x256.Slices ![1, 0] S1x128
  shapeCasts_S1x128_S128 : S1x128.ShapeCasts S128
  slices_S2x256_S1x128_0_0 : S2x256.Slices ![0, 0] S1x128
  slices_S2x256_S1x128_1_128 : S2x256.Slices ![1, 128] S1x128
  slices_S2x256_S1x128_0_128 : S2x256.Slices ![0, 128] S1x128
  bcast_S128_S128x1_0 : S128.BroadcastsInDim S128x1 (![0] : Fin 1 → Fin S128x1.rank)
  concatenates_S128x1_S128x1_S128x2_d1 : Shape.Concatenates [S128x1, S128x1] S128x2 1
  slices_S2_S1_1 : S2.Slices ![1] S1
  shapeCasts_S1_S_ : S1.ShapeCasts S_
  slices_S2_S1_0 : S2.Slices ![0] S1
  slices_S640000x2_S640000x1_0_0 : S640000x2.Slices ![0, 0] S640000x1
  shapeCasts_S640000x1_S640000 : S640000x1.ShapeCasts S640000
  bcast_S_S640000 : S_.BroadcastsInDim S640000 (![] : Fin 0 → Fin S640000.rank)
  slices_S640000x2_S640000x1_0_1 : S640000x2.Slices ![0, 1] S640000x1
  inb_S10000x128_S10000x128_0_0 : ∀ a, (![0, 0] : Fin 2 → Nat) a + S10000x128.size a ≤ S10000x128.size a
  h_S10000x128 : 0 < S10000x128.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S10000x2_S10000x2_0_0 : ∀ a, (![0, 0] : Fin 2 → Nat) a + S10000x2.size a ≤ S10000x2.size a
  h_S10000x2 : 0 < S10000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  shapeCasts_S640000_S5000x128 : S640000.ShapeCasts S5000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S5000x128_S640000 : S5000x128.ShapeCasts S640000
  concatenates_S640000x1_S640000x1_S640000x2_d1 : Shape.Concatenates [S640000x1, S640000x1] S640000x2 1
  dot_S10000x128_S128x2_S10000x2_1_0_0_1_n_n_wf : DotDims.WF S10000x128 S128x2 S10000x2 [1] [0] [0] [1] [] []
  gather_S50000_S640000x1_S640000_n_0_n_n_0_1_1_wf : GatherDims.WF S50000 S640000x1 S640000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x2.size a ≤ S50000x2.size a
  hwx0_2 : ∀ i : grid0.Coords, EltTy.bits .f32 = 32 ∨ (Rect.block (s := S50000x2) S10000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S5000x128.size a
  hwx1_0 : ∀ i : grid1.Coords, EltTy.bits .f32 = 32 ∨ (Rect.block (s := S5000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S5000x128.size a
  hwx1_1 : ∀ i : grid1.Coords, EltTy.bits .f32 = 32 ∨ (Rect.block (s := S5000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S5000x128.size a
  hwx1_2 : ∀ i : grid1.Coords, EltTy.bits .f32 = 32 ∨ (Rect.block (s := S5000x128) S1000x128.size (cc1_transform_2 i) (hinb1_2 i)).WholeWords (EltTy.packing .f32)

variable [Facts₀]

def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S10000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35_0) S1000x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35_1) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x256 : Shape := ⟨2, ![2, 256]⟩
abbrev S2 : Shape := ⟨1, ![2]⟩
abbrev S640000x2 : Shape := ⟨2, ![640000, 2]⟩
abbrev S640000x1 : Shape := ⟨2, ![640000, 1]⟩
abbrev S640000 : Shape := ⟨1, ![640000]⟩
abbrev S_ : Shape := ⟨0, ![]⟩
abbrev S640000x128 : Shape := ⟨2, ![640000, 128]⟩
abbrev S640000x256 : Shape := ⟨2, ![640000, 256]⟩
abbrev S256x2 : Shape := ⟨2, ![256, 2]⟩
abbrev S1x2 : Shape := ⟨2, ![1, 2]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x256, .f32⟩
  | .hbm, ⟨2, _⟩ => ⟨S2, .f32⟩
  | .hbm, ⟨3, _⟩ => ⟨S640000x2, .i32⟩
  | .hbm, ⟨4, _⟩ => ⟨S640000x1, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x1, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x256, .f32⟩
  | .hbm, ⟨27, _⟩ => ⟨S256x2, .f32⟩
  | .hbm, ⟨28, _⟩ => ⟨S640000x2, .f32⟩
  | .hbm, ⟨29, _⟩ => ⟨S1x2, .f32⟩
  | .hbm, ⟨30, _⟩ => ⟨S640000x2, .f32⟩
  | .hbm, ⟨31, _⟩ => ⟨S640000x2, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S640000, .f32⟩
  | .hbm, ⟨36, _⟩ => ⟨S640000, .f32⟩
  | .hbm, ⟨37, _⟩ => ⟨S640000x1, .f32⟩
  | .hbm, ⟨38, _⟩ => ⟨S640000x2, .f32⟩
  | .hbm, ⟨39, _⟩ => ⟨S640000x2, .f32⟩
  | .hbm, ⟨40, _⟩ => ⟨S640000x2, .f32⟩
  | .hbm, ⟨41, _⟩ => ⟨S_, .f32⟩
  | .hbm, ⟨42, _⟩ => ⟨S640000, .f32⟩
  | .hbm, ⟨43, _⟩ => ⟨S640000x1, .f32⟩
  | .hbm, ⟨44, _⟩ => ⟨S640000x1, .f32⟩
  | .hbm, ⟨45, _⟩ => ⟨S640000x2, .f32⟩
  | .hbm, ⟨46, _⟩ => ⟨S640000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_call0_cst_0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_cst_1 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  slices_S640000x2_S640000x1_0_0 : S640000x2.Slices ![0, 0] S640000x1
  shapeCasts_S640000x1_S640000 : S640000x1.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S640000x2_S640000x1_0_1 : S640000x2.Slices ![0, 1] S640000x1
  concatenates_S640000x128_S640000x128_S640000x256_d1 : Shape.Concatenates [S640000x128, S640000x128] S640000x256 1
  transposes_S2x256_S256x2_1_0 : S2x256.Transposes [1, 0] S256x2
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  reducesTo_S640000x2_S640000_d1 : S640000x2.ReducesTo [1] S640000
  h_S_ : 0 < S_.numel
  bcast_S640000x1_S640000x2_0_1 : S640000x1.BroadcastsInDim S640000x2 (![0, 1] : Fin 2 → Fin S640000x2.rank)
  gather_S50000x128_S640000x1_S640000x128_1_0_n_n_0_1_1128_wf : GatherDims.WF S50000x128 S640000x1 S640000x128 [1] [0] [] [0] [] 1 ![1, 128]
  dot_S640000x256_S256x2_S640000x2_1_0_0_1_n_n_wf : DotDims.WF S640000x256 S256x2 S640000x2 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x2_S640000x2_1_0_0_1_n_n : DotDims S640000x256 S256x2 S640000x2 where
  lhsContracting := [1]
  rhsContracting := [0]
  lhsNonContracting := [0]
  rhsNonContracting := [1]
  lhsBatch := []
  rhsBatch := []
  wf := dot_S640000x256_S256x2_S640000x2_1_0_0_1_n_n_wf

class Facts : Prop extends Facts₀ where

variable [Facts]
-- ==== Proof.Spec.lean ====
/-
  The mathematics both programs are compared through, index by index, over the extended reals.

  An edge `e` names two rows of the node table `h` (50000 rows of 128 features): `node E e 0` and `node E e 1`, each
  entry of the edge list read as a signed integer and clamped into the table. With `W` the 2 x 256 weight matrix and `b`
  the two biases, class `c`'s logit of the edge is `sum_{k<256} feat k * W c k + b c`, where `feat` is the source row
  followed by the target row. The two-class log-softmax depends on the logits only through their difference
  `d = logit 1 - logit 0`: it is `(-softplus d, -softplus (-d))`. The difference is itself a sum of two per-node
  projections, `proj n j = sum_{k<128} h n k * (W 1 (128 j + k) - W 0 (128 j + k))`, plus `b 1 - b 0`.
  `kOut` is the second way of computing (projections, difference, softplus) and `refOut` the first (logits, row maximum,
  exponentials, logarithm of their sum); `MathCore` proves them equal where `h`, `W` and `b` hold real numbers.
-/
import Idealize.ShloMosaic.PureOps.Ideal
import Idealize.ShloMosaic.Lib.ValueIdx

noncomputable section

open scoped BigOperators

namespace Cert.EdgeSpec

open Idealize.ShloMosaic Idealize.ShloMosaic.ValueIdx

/-- The node table's shape, the weight matrix's, the bias vector's, and the edge list's (which is also the result's). -/
abbrev SH : Shape := ⟨2, ![50000, 128]⟩
abbrev SW : Shape := ⟨2, ![2, 256]⟩
abbrev SB : Shape := ⟨1, ![2]⟩
abbrev SE : Shape := ⟨2, ![640000, 2]⟩

/-- A 32-bit word read as a signed integer and clamped into the node table's rows `0 … 49999`. -/
def rowOf (x : BitVec 32) : Fin 50000 := ⟨min x.toInt.toNat 49999, by omega⟩

/-- A 32-bit word clamped, as a signed integer, into `0 … 49999`: the larger of it and 0, then the smaller of that and 49999. -/
def clip (x : BitVec 32) : BitVec 32 := IntOp.minsi 49999#32 (IntOp.maxsi 0#32 x)

/-- The edge whose log-odds sit at row `r`, lane `l` of the 5000 x 128 lane-dense layout: `128 r + l`. -/
def flat (i : (⟨2, ![5000, 128]⟩ : Shape).Idx) : Fin 640000 :=
  ⟨128 * (i 0).val + (i 1).val, by have h0 := idx2_lt0 i; have h1 := idx2_lt1 i; omega⟩

/-- The row of the node table that entry `(e, j)` of the edge list names. -/
def node (E : SE.Idx → BitVec 32) (e : Fin 640000) (j : Fin 2) : Fin 50000 := rowOf (E (ix2 e j))

/-- Every entry of the edge list is a row number of the node table. -/
def InRange (E : SE.Idx → BitVec 32) : Prop := ∀ i, 0 ≤ (E i).toInt ∧ (E i).toInt < 50000

/-- Every entry of a float array is a real number (neither infinity). -/
def IsReal {s : Shape} (x : s.Idx → EReal) : Prop := ∀ i, ∃ r : ℝ, x i = (r : EReal)

/-! ## The kernel's way: per-node projections on the weight differences, then softplus of the edge's log-odds -/

/-- Column `j` of the weight-difference matrix: class 1's weights less class 0's, on the source half (`j = 0`) or the
    target half (`j = 1`) of the feature axis. -/
def dw (W : SW.Idx → EReal) (k : Fin 128) (j : Fin 2) : EReal :=
  W (ix2 (1 : Fin 2) (⟨128 * j.val + k.val, by omega⟩ : Fin 256)) - W (ix2 (0 : Fin 2) (⟨128 * j.val + k.val, by omega⟩ : Fin 256))

/-- Node `n`'s projection on column `j` of the weight differences. -/
def proj (h : SH.Idx → EReal) (W : SW.Idx → EReal) (n : Fin 50000) (j : Fin 2) : EReal :=
  ∑ k : Fin 128, h (ix2 n k) * dw W k j

/-- The edge's log-odds of class 1 against class 0. -/
def diff (h : SH.Idx → EReal) (W : SW.Idx → EReal) (b : SB.Idx → EReal) (E : SE.Idx → BitVec 32) (e : Fin 640000) : EReal :=
  proj h W (node E e 0) 0 + proj h W (node E e 1) 1 + (b (ix1 (1 : Fin 2)) - b (ix1 (0 : Fin 2)))

/-- `-softplus x` in the order the kernel's second region computes it: `0 - (max x 0 + log1p (exp (0 - |x - 0|)))`, with
    the guard that would answer `x + 0` where `x - 0` differs from itself (it never does on the extended reals). -/
def negSoftplus (x : EReal) : EReal :=
  0 - Scalar.select (Ideal.cmp .one (x - 0) (x - 0)) (x + 0)
    (max x 0 + Ideal.log1p (Ideal.exp (0 - max (x - 0) (-(x - 0)))))

/-- The kernel's result: column 0 is `-softplus d`, column 1 is `-softplus (0 - d)`, `d` the edge's log-odds. -/
def kOut (h : SH.Idx → EReal) (W : SW.Idx → EReal) (b : SB.Idx → EReal) (E : SE.Idx → BitVec 32) (i : SE.Idx) : EReal :=
  if (i 1).val = 0 then negSoftplus (diff h W b E (i 0)) else negSoftplus (0 - diff h W b E (i 0))

/-! ## The kernel's stages as whole arrays

Each stage of the kernel program as one function of the arrays it reads, over literal shapes: what a region or a stretch of
host operations leaves in a buffer is stated as one of these applied to the buffers it found. -/

/-- A [50000,128] array times a [128,2] array: entry `(n, j)` is `∑ k, x n k * y k j`. -/
def matProd (x : SH.Idx → EReal) (y : (⟨2, ![128, 2]⟩ : Shape).Idx → EReal) : (⟨2, ![50000, 2]⟩ : Shape).Idx → EReal :=
  fun i => ∑ k : Fin 128, x (ix2 (i 0) k) * y (ix2 k (i 1))

/-- The weight differences as a [128,2] array. -/
def dwArr (W : SW.Idx → EReal) : (⟨2, ![128, 2]⟩ : Shape).Idx → EReal := fun i => dw W (i 0) (i 1)

/-- The bias difference as a scalar array. -/
def biasDiff (b : SB.Idx → EReal) : (⟨0, ![]⟩ : Shape).Idx → EReal := fun _ => b (ix1 (1 : Fin 2)) - b (ix1 (0 : Fin 2))

/-- Column `j` of the edge list, clamped. -/
def clipCol (E : SE.Idx → BitVec 32) (j : Fin 2) : (⟨1, ![640000]⟩ : Shape).Idx → BitVec 32 := fun i => clip (E (ix2 (i 0) j))

/-- An index vector all of whose entries are row numbers of the node table. -/
def RowsOK (u : (⟨1, ![640000]⟩ : Shape).Idx → BitVec 32) : Prop := ∀ i, 0 ≤ (u i).toInt ∧ (u i).toInt ≤ 49999

/-- The log-odds in the lane-dense layout: at row `r`, lane `l`, edge `128 r + l`'s — column 0 of the projections `nd` at the
    row `u` names, plus column 1 at the row `v` names, plus the scalar `bd`. -/
def midArr (nd : (⟨2, ![50000, 2]⟩ : Shape).Idx → EReal) (u v : (⟨1, ![640000]⟩ : Shape).Idx → BitVec 32)
    (bd : (⟨0, ![]⟩ : Shape).Idx → EReal) : (⟨2, ![5000, 128]⟩ : Shape).Idx → EReal :=
  fun i => (nd (ix2 (rowOf (u (ix1 (flat i)))) (0 : Fin 2)) + nd (ix2 (rowOf (v (ix1 (flat i)))) (1 : Fin 2))) + bd ix0

/-- `-softplus` of an array, entry by entry, and of its negation. -/
def nspArr {s : Shape} (x : s.Idx → EReal) : s.Idx → EReal := fun i => negSoftplus (x i)
def nspNegArr {s : Shape} (x : s.Idx → EReal) : s.Idx → EReal := fun i => negSoftplus (0 - x i)

/-- Row `e / 128`, lane `e % 128` of the 5000 x 128 layout: where edge `e` sits. -/
def unflat (e : Fin 640000) : (⟨2, ![5000, 128]⟩ : Shape).Idx :=
  ix2 (⟨e.val / 128, by have := e.isLt; omega⟩ : Fin 5000) (⟨e.val % 128, by omega⟩ : Fin 128)

/-- The result from the two lane-dense outputs: column 0 from the first, column 1 from the second, each at the edge's row and lane. -/
def tailArr (o0 o1 : (⟨2, ![5000, 128]⟩ : Shape).Idx → EReal) : SE.Idx → EReal :=
  fun i => if (i 1).val = 0 then o0 (unflat (i 0)) else o1 (unflat (i 0))

/-! ## The reference's way: both logits, then a log-softmax over the two classes -/

/-- The edge's 256 features: the source node's row followed by the target node's. -/
def feat (h : SH.Idx → EReal) (E : SE.Idx → BitVec 32) (e : Fin 640000) (k : Fin 256) : EReal :=
  if hk : k.val < 128 then h (ix2 (node E e 0) (⟨k.val, hk⟩ : Fin 128))
  else h (ix2 (node E e 1) (⟨k.val - 128, by omega⟩ : Fin 128))

/-- Class `c`'s logit of edge `e`. -/
def logit (h : SH.Idx → EReal) (W : SW.Idx → EReal) (b : SB.Idx → EReal) (E : SE.Idx → BitVec 32) (e : Fin 640000) (c : Fin 2) : EReal :=
  (∑ k : Fin 256, feat h E e k * W (ix2 c k)) + b (ix1 c)

/-- The larger of a row's two logits, folded from `-∞` and then compared with `-∞` once more, as the reference does. -/
def rowMax (l : Fin 2 → EReal) : EReal := max ⊥ (Finset.univ.fold max ⊥ l)

/-- Log-softmax over two classes in the reference's order: the logit less the row maximum, less the logarithm of the sum
    (from zero) of the exponentials of both shifted logits. -/
def logSoftmax2 (l : Fin 2 → EReal) (c : Fin 2) : EReal :=
  (l c - rowMax l) - Ideal.log (0 + ∑ k : Fin 2, Ideal.exp (l k - rowMax l))

/-- The reference's result. -/
def refOut (h : SH.Idx → EReal) (W : SW.Idx → EReal) (b : SB.Idx → EReal) (E : SE.Idx → BitVec 32) (i : SE.Idx) : EReal :=
  logSoftmax2 (logit h W b E (i 0)) (i 1)

end Cert.EdgeSpec

end
-- ==== Proof.KernelPure.lean ====
/-
  The kernel's stages composed are its result: flattening the lane-dense layout back gives each edge its own log-odds,
  and a clamped index names the row the unclamped one names.

  Word facts. For a 32-bit word `x` read as a signed integer, `clip x` is `min (max x 0) 49999`, so it lies in
  `0 … 49999`; and `rowOf`, which cuts a signed integer at 0 from below and at 49999 from above, answers the same row for
  `clip x` as for `x`. Index facts. Edge `e` sits at row `e / 128`, lane `e % 128`, and `128 (e / 128) + e % 128 = e`,
  so reading the lane-dense log-odds at the edge's place gives the edge's own: the projections' entry `(n, j)` is
  `proj h W n j` term by term, and the scalar is the bias difference.
-/
import proofs.«406887_j58317065945293_3_alg».proof.Proof.Spec

noncomputable section

open scoped BigOperators

namespace Cert.EdgeSpec

open Idealize.ShloMosaic Idealize.ShloMosaic.ValueIdx

/-! ## Words: the clamp as a signed integer -/

/-- Signed "less than" on words is "less than" on the integers they denote. -/
theorem slt_iff_toInt_lt (x y : BitVec 32) : x.slt y = true ↔ x.toInt < y.toInt := by
  simp [BitVec.slt]

/-- The clamped word denotes the integer clamped: the larger of it and 0, then the smaller of that and 49999. -/
theorem clip_toInt (x : BitVec 32) : (clip x).toInt = min (max x.toInt 0) 49999 := by
  have h0 : (0#32 : BitVec 32).toInt = 0 := by decide
  have h1 : (49999#32 : BitVec 32).toInt = 49999 := by decide
  unfold clip IntOp.minsi IntOp.maxsi
  by_cases hx : x.slt 0#32 = true
  · -- a negative word: the larger of it and 0 is 0, and 49999 is not below 0
    have hx' := (slt_iff_toInt_lt _ _).1 hx
    rw [if_pos hx]
    have hn : ¬ ((49999#32 : BitVec 32).slt 0#32 = true) := by decide
    rw [if_neg hn]
    omega
  · -- a non-negative word stays; it is then cut at 49999 or not
    have hx' : ¬ x.toInt < (0#32 : BitVec 32).toInt := fun h => hx ((slt_iff_toInt_lt _ _).2 h)
    rw [if_neg hx]
    by_cases hy : (49999#32 : BitVec 32).slt x = true
    · have hy' := (slt_iff_toInt_lt _ _).1 hy
      rw [if_pos hy]
      omega
    · have hy' : ¬ (49999#32 : BitVec 32).toInt < x.toInt := fun h => hy ((slt_iff_toInt_lt _ _).2 h)
      rw [if_neg hy]
      omega

/-- A clamped word is a row number of the node table. -/
theorem clip_bounds (x : BitVec 32) : 0 ≤ (clip x).toInt ∧ (clip x).toInt ≤ 49999 := by
  rw [clip_toInt]; omega

/-- Clamping a word first does not change the row it names: `min (toNat (min (max z 0) 49999)) 49999 = min (toNat z) 49999`. -/
theorem rowOf_clip (x : BitVec 32) : rowOf (clip x) = rowOf x := by
  apply Fin.ext
  show min (clip x).toInt.toNat 49999 = min x.toInt.toNat 49999
  rw [clip_toInt]
  omega

/-- A clamped column of the edge list holds row numbers of the node table, whatever the edge list holds. -/
theorem rowsOK_clipCol (E : SE.Idx → BitVec 32) (j : Fin 2) : RowsOK (clipCol E j) := by
  intro i
  exact clip_bounds (E (ix2 (i 0) j))

/-! ## Indices: an edge's place in the lane-dense layout -/

/-- The edge at edge `e`'s place is `e`: `128 (e / 128) + e % 128 = e`. -/
theorem flat_unflat (e : Fin 640000) : flat (unflat e) = e := by
  apply Fin.ext
  show 128 * (e.val / 128) + e.val % 128 = e.val
  exact Nat.div_add_mod e.val 128

/-- The lane-dense log-odds read at edge `e`'s place are `e`'s log-odds: the gathered rows are the rows the edge names
    (clamping changes no row), entry `(n, j)` of the product with the weight differences is `proj h W n j` summand by
    summand, and the scalar is the bias difference. -/
theorem midArr_unflat (h : SH.Idx → EReal) (W : SW.Idx → EReal) (b : SB.Idx → EReal) (E : SE.Idx → BitVec 32)
    (e : Fin 640000) :
    midArr (matProd h (dwArr W)) (clipCol E 0) (clipCol E 1) (biasDiff b) (unflat e) = diff h W b E e := by
  unfold midArr diff
  rw [flat_unflat]
  unfold clipCol node
  show (matProd h (dwArr W) (ix2 (rowOf (clip (E (ix2 e 0)))) (0 : Fin 2))
        + matProd h (dwArr W) (ix2 (rowOf (clip (E (ix2 e 1)))) (1 : Fin 2))) + biasDiff b ix0 = _
  rw [rowOf_clip, rowOf_clip]
  rfl

/-- The kernel's stages, composed, are `kOut`: projections on the weight differences, gathered at the clamped indices and
    summed with the bias difference in the lane-dense layout, through `-softplus` and its negated twin, flattened back. -/
theorem stages_eq_kOut (h : SH.Idx → EReal) (W : SW.Idx → EReal) (b : SB.Idx → EReal) (E : SE.Idx → BitVec 32) :
    tailArr (nspArr (midArr (matProd h (dwArr W)) (clipCol E 0) (clipCol E 1) (biasDiff b)))
            (nspNegArr (midArr (matProd h (dwArr W)) (clipCol E 0) (clipCol E 1) (biasDiff b)))
      = kOut h W b E := by
  funext i
  unfold tailArr kOut nspArr nspNegArr
  by_cases hi : (i 1).val = 0
  · rw [if_pos hi, if_pos hi]
    exact congrArg negSoftplus (midArr_unflat h W b E (i 0))
  · rw [if_neg hi, if_neg hi]
    exact congrArg (fun t => negSoftplus (0 - t)) (midArr_unflat h W b E (i 0))

end Cert.EdgeSpec

end
-- ==== Proof.Region0.lean ====
/-
  What the first region (the projection matmul, five blocks of 10000 rows) leaves in its output array: every entry is
  the dot product of a row of the first operand with a column of the second, as the region finds them.
-/
import proofs.«406887_j58317065945293_3_alg».proof.Proof.Spec
import proofs.«406887_j58317065945293_3_alg».proof.Proof.Gen.KernelIdeal.Frame
import Idealize.ShloMosaic.Lib.Pipeline.Value
import Idealize.ShloMosaic.PureOps.Ideal.Laws

noncomputable section

open scoped BigOperators

namespace Cert.KernelIdeal.Bridge

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)

/-! ## The block product at an index -/

/-- The origin of a rank-2 block, as the constant-zero function. -/
theorem region0_origin : (![0, 0] : Fin 2 → Nat) = fun _ => 0 := funext fun a => by fin_cases a <;> rfl

/-- The left operand's row is the output's row. -/
theorem region0_lhs_row (i : S10000x2.Idx) (q : dot_S10000x128_S128x2_S10000x2_1_0_0_1_n_n.contr.Idx) :
    (dot_S10000x128_S128x2_S10000x2_1_0_0_1_n_n.lhsIdx i q 0).val = (i 0).val := by
  unfold DotDims.lhsIdx
  rw [dif_neg (show ¬(0 : Fin S10000x128.rank) ∈ dot_S10000x128_S128x2_S10000x2_1_0_0_1_n_n.lhsBatch by decide), dif_pos (show (0 : Fin S10000x128.rank) ∈ dot_S10000x128_S128x2_S10000x2_1_0_0_1_n_n.lhsNonContracting by decide)]
  rfl
/-- The left operand's column is the contracted coordinate. -/
theorem region0_lhs_col (i : S10000x2.Idx) (q : dot_S10000x128_S128x2_S10000x2_1_0_0_1_n_n.contr.Idx) :
    (dot_S10000x128_S128x2_S10000x2_1_0_0_1_n_n.lhsIdx i q 1).val = (q ⟨0, by decide⟩).val :=
  dot_S10000x128_S128x2_S10000x2_1_0_0_1_n_n.lhsIdx_val_of_single rfl i q
/-- The right operand's row is the contracted coordinate. -/
theorem region0_rhs_row (i : S10000x2.Idx) (q : dot_S10000x128_S128x2_S10000x2_1_0_0_1_n_n.contr.Idx) :
    (dot_S10000x128_S128x2_S10000x2_1_0_0_1_n_n.rhsIdx i q 0).val = (q ⟨0, by decide⟩).val :=
  dot_S10000x128_S128x2_S10000x2_1_0_0_1_n_n.rhsIdx_val_of_single rfl i q
/-- The right operand's column is the output's column. -/
theorem region0_rhs_col (i : S10000x2.Idx) (q : dot_S10000x128_S128x2_S10000x2_1_0_0_1_n_n.contr.Idx) :
    (dot_S10000x128_S128x2_S10000x2_1_0_0_1_n_n.rhsIdx i q 1).val = (i 1).val := by
  unfold DotDims.rhsIdx
  rw [dif_neg (show ¬(1 : Fin S128x2.rank) ∈ dot_S10000x128_S128x2_S10000x2_1_0_0_1_n_n.rhsBatch by decide), dif_pos (show (1 : Fin S128x2.rank) ∈ dot_S10000x128_S128x2_S10000x2_1_0_0_1_n_n.rhsNonContracting by decide)]
  rfl

/-- One block's product: entry `(p, q)` of a [10000,128] block times a [128,2] block, accumulated from zero, is
    `∑ k, x0 p k * x1 k q`. -/
theorem region0_block_apply (x0 : Vec Ideal S10000x128 .f32) (x1 : Vec Ideal S128x2 .f32) (i : S10000x2.Idx) :
    k0_pay1 (F := Ideal) x0 x1 i = ∑ k : Fin 128, x0 (ix2 (i 0) k) * x1 (ix2 k (i 1)) := by
  unfold k0_pay1
  rw [shapeCast_self]
  refine (Ideal.matmul_constant_zero_apply dot_S10000x128_S128x2_S10000x2_1_0_0_1_n_n (some .fp32) x0 x1 i).trans ?_
  rw [← Equiv.sum_comp (contrEquiv1 dot_S10000x128_S128x2_S10000x2_1_0_0_1_n_n 128 rfl rfl).symm]
  refine Finset.sum_congr rfl fun k _ => ?_
  have hk := contrEquiv1_symm_val dot_S10000x128_S128x2_S10000x2_1_0_0_1_n_n 128 rfl rfl k
  have el : dot_S10000x128_S128x2_S10000x2_1_0_0_1_n_n.lhsIdx i ((contrEquiv1 dot_S10000x128_S128x2_S10000x2_1_0_0_1_n_n 128 rfl rfl).symm k) = ix2 (i 0) k := funext fun a => Fin.ext (by
    match a with
    | ⟨0, _⟩ => exact region0_lhs_row _ _
    | ⟨1, _⟩ => exact (region0_lhs_col _ _).trans hk)
  have er : dot_S10000x128_S128x2_S10000x2_1_0_0_1_n_n.rhsIdx i ((contrEquiv1 dot_S10000x128_S128x2_S10000x2_1_0_0_1_n_n 128 rfl rfl).symm k) = ix2 k (i 1) := funext fun a => Fin.ext (by
    match a with
    | ⟨0, _⟩ => exact (region0_rhs_row _ _).trans hk
    | ⟨1, _⟩ => exact region0_rhs_col _ _)
  rw [el, er]
  rfl

/-- One block's product is an entry of the whole arrays' product, when the block rows and columns it reads are the
    arrays' rows and columns at that entry. -/
theorem region0_block_eq_matProd (x : SH.Idx → EReal) (y : (⟨2, ![128, 2]⟩ : Shape).Idx → EReal)
    (x0 : Vec Ideal S10000x128 .f32) (x1 : Vec Ideal S128x2 .f32) (j : S10000x2.Idx) (i : (⟨2, ![50000, 2]⟩ : Shape).Idx)
    (hx : ∀ k : Fin 128, x0 (ix2 (j 0) k) = x (ix2 (i 0) k)) (hy : ∀ k : Fin 128, x1 (ix2 k (j 1)) = y (ix2 k (i 1))) :
    k0_pay1 (F := Ideal) x0 x1 j = matProd x y i := by
  rw [region0_block_apply]
  unfold matProd
  exact Finset.sum_congr rfl fun k _ => by rw [hx k, hy k]

variable (V : (c : Dev nD) → (b : Ref sig .tc) → Buf (Elt Ideal) ((c : Thread nD τ).loc b))

/-! ## From blocks to the array -/

/-- The block index maps over the five points: the first operand's block moves with the output's along the rows and
    sits at column block 0; the second operand's is always block (0, 0); the output's column block is 0 and its row
    block at most 4. -/
theorem region0_idx_facts : ∀ t : Fin cfg0.N, win0_0.index t 0 = win0_2.index t 0 ∧ win0_0.index t 1 = 0
    ∧ win0_1.index t 0 = 0 ∧ win0_1.index t 1 = 0 ∧ win0_2.index t 1 = 0 ∧ win0_2.index t 0 ≤ 4 :=
  (by decide +kernel : ∀ t : Fin grid0.N, _)

/-- Each of the five row blocks of the output is some point's. -/
theorem region0_idx_onto : ∀ q : Fin 5, ∃ t : Fin cfg0.N, win0_2.index t = ![q.val, 0] :=
  (by decide +kernel : ∀ q : Fin 5, ∃ t : Fin grid0.N, win0_2.index t = ![q.val, 0])

/-- What point `t` writes back is block `t` of the product of the two input arrays. -/
theorem region0_flushed_eq (c : Dev nD) (t : Fin cfg0.N) :
    (dat0 (F := Ideal) V c).flushed 2 t
      = ((cfg0.win 2).blk t).view.read (Elt Ideal) (matProd (V c main_arg0) (V c main_v12)) := by
  show (cfg0.win 2).cut (grid0.coords t) ((dat0 V c).after 2 t) = _
  rw [after0_2]
  unfold out0_2
  rw [View.canon_unit_zero region0_origin]
  simp only [View.ld_unit_zero (S := S10000x128) region0_origin, View.ld_unit_zero (S := S128x2) region0_origin]
  obtain ⟨e0, e1, e2, e3, e4, e5⟩ := region0_idx_facts t
  funext j
  refine region0_block_eq_matProd (V c main_arg0) (V c main_v12) (iblk0 V c 0 t) (iblk0 V c 1 t) j
    (((cfg0.win 2).blk t).view.emb j) (fun k => ?_) (fun k => ?_)
  · -- the first operand's block starts at the output block's first row, column 0
    show V c main_arg0 (((cfg0.win 0).blk t).view.emb (ix2 (j 0) k)) = V c main_arg0 (ix2 ((((cfg0.win 2).blk t).view.emb j) 0) k)
    refine congrArg _ ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · -- the second operand's block is the whole array; the output block's first column is 0
    show V c main_v12 (((cfg0.win 1).blk t).view.emb (ix2 k (j 1))) = V c main_v12 (ix2 k ((((cfg0.win 2).blk t).view.emb j) 1))
    refine congrArg _ ?_
    funext a; apply Fin.ext
    match a with
    | ⟨0, _⟩ => show win0_1.index t (0 : Fin 2) * 128 + 1 * k.val = k.val; omega
    | ⟨1, _⟩ => show win0_1.index t (1 : Fin 2) * 2 + 1 * (j 1).val = win0_2.index t (1 : Fin 2) * 2 + 1 * (j 1).val; omega

/-- An index of the output array is in point `t`'s block iff each coordinate is in the block's range on its axis. -/
theorem region0_mem_blk (t : Fin cfg0.N) (i : S50000x2.Idx) :
    i ∈ ((cfg0.win 2).blk t).view.set ↔ ∀ a : Fin 2, win0_2.index t a * S10000x2.size a ≤ (i a).val
      ∧ (i a).val < win0_2.index t a * S10000x2.size a + S10000x2.size a := by
  show i ∈ ((View.whole main_v24).slice (win0_2.rect t)).set ↔ _
  rw [View.set_slice_whole, Rect.mem_set_unit]
  exact Iff.rfl

/-- Every index of the output array is in the block of the point whose row block is the row divided by 10000. -/
theorem region0_cover (i : S50000x2.Idx) :
    ∃ t : Fin cfg0.N, (cfg0.win 2).flush t = true ∧ i ∈ ((cfg0.win 2).blk t).view.set := by
  have hi0 : (i 0).val < 50000 := (i 0).isLt
  have hi1 : (i 1).val < 2 := (i 1).isLt
  obtain ⟨t, ht⟩ := region0_idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [region0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 2 ≤ (i 1).val ∧ (i 1).val < win0_2.index t (1 : Fin 2) * 2 + 2; omega

/-- The projection region's output array after its five points: entry `(n, j)` is `∑ k, x n k * y k j` of the two input arrays. -/
theorem region0_value (c : Dev nD) :
    (dat0 (F := Ideal) V c).arrAt 2 cfg0.N = matProd (V c main_arg0) (V c main_v12) := by
  exact (dat0 V c).arrAt_eq_of_cover 2 (matProd (V c main_arg0) (V c main_v12)) (fun t _ => region0_flushed_eq V c t) region0_cover

end Cert.KernelIdeal.Bridge

end
-- ==== Proof.Region1.lean ====
/-
  What the second region (the pointwise softplus, five blocks of 1000 rows) leaves in its two output arrays.

  The region reads the 5000 x 128 array of log-odds in five blocks of 1000 rows and writes two arrays of the same shape,
  block by block at the same rows. On a block `x` the first result is, entry by entry,
  `0 - select (x - 0 ≠ x - 0) (x + 0) (max x 0 + log1p (exp (0 - |x - 0|)))`, which is `negSoftplus x`; the second is the
  same expression at `0 - x`. The five blocks `(q, 0)`, `q < 5`, tile the array: row `r` lies in block `r / 1000`. So the
  first array ends as `negSoftplus` of the input at every index and the second as `negSoftplus` of its negation.
-/
import proofs.«406887_j58317065945293_3_alg».proof.Proof.Spec
import proofs.«406887_j58317065945293_3_alg».proof.Proof.Gen.KernelIdeal.Frame
import Idealize.ShloMosaic.Lib.Pipeline.Value
import Idealize.ShloMosaic.PureOps.Ideal.Laws

noncomputable section

open scoped BigOperators

namespace Cert.KernelIdeal.Bridge

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two payloads, entry by entry -/

/-- The zero offset of a whole-block access, as the constant function. -/
theorem hz1 : (![0, 0] : Fin 2 → Nat) = fun _ => 0 := funext fun a => by fin_cases a <;> rfl

/-- The first payload, entry by entry: `0 - select (x - 0 ≠ x - 0) (x + 0) (max x 0 + log1p (exp (0 - |x - 0|)))`. -/
theorem pay2_apply (x0 : Vec Ideal S1000x128 .f32) (y : S1000x128.Idx) :
    k1_pay2 (F := Ideal) x0 y = negSoftplus (x0 y) := by
  unfold k1_pay2 k1_pay1 negSoftplus
  simp only [shapeCast_self, Scalar.ofBits, Ideal.ofBits_def, Ideal.ofBits_zero_f32]
  rfl

/-- The second payload, entry by entry: the same expression at `0 - x`. -/
theorem pay3_apply (x0 : Vec Ideal S1000x128 .f32) (y : S1000x128.Idx) :
    k1_pay3 (F := Ideal) x0 y = negSoftplus (0 - x0 y) := by
  unfold k1_pay3 k1_pay1 negSoftplus
  simp only [shapeCast_self, Scalar.ofBits, Ideal.ofBits_def, Ideal.ofBits_zero_f32]
  rfl

/-! ## The first output array -/

/-- The block indices over the five points: the input's block moves with the output's, which is `(q, 0)`, `q ≤ 4`. -/
theorem idx_facts1 : ∀ t : Fin cfg1.N, win1_0.index t (0 : Fin 2) = win1_1.index t (0 : Fin 2)
    ∧ win1_0.index t (1 : Fin 2) = win1_1.index t (1 : Fin 2)
    ∧ win1_1.index t (0 : Fin 2) ≤ 4
    ∧ win1_1.index t (1 : Fin 2) = 0 :=
  (by decide +kernel : ∀ t : Fin grid1.N, _)

/-- Every block `(q, 0)`, `q < 5`, is some point's. -/
theorem idx_onto1 : ∀ (q0 : Fin 5), ∃ t : Fin cfg1.N, win1_1.index t = ![q0.val, 0] :=
  (by decide +kernel : ∀ (q0 : Fin 5), ∃ t : Fin grid1.N, win1_1.index t = ![q0.val, 0])

/-- What point `t` writes back to the first output is block `t` of `-softplus` of the input array. -/
theorem flushed1_eq (c : Dev nD) (t : Fin cfg1.N) :
    (dat1 (F := Ideal) V c).flushed 1 t
      = ((cfg1.win 1).blk t).view.read (Elt Ideal) (nspArr (s := S5000x128) (V c main_v34)) := by
  show (cfg1.win 1).cut (grid1.coords t) ((dat1 (F := Ideal) V c).after 1 t) = _
  rw [after1_1]
  unfold out1_1
  rw [View.canon_unit_zero hz1]
  simp only [View.ld_unit_zero (S := S1000x128) hz1]
  obtain ⟨e0, e1, e2, e3⟩ := idx_facts1 t
  funext j
  refine (pay2_apply _ j).trans ?_
  show negSoftplus (V c main_v34 (((cfg1.win 0).blk t).view.emb j)) = negSoftplus (V c main_v34 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 1000 + 1 * (j 0).val = win1_1.index t (0 : Fin 2) * 1000 + 1 * (j 0).val; omega
    | ⟨1, _⟩ => show win1_0.index t (1 : Fin 2) * 128 + 1 * (j 1).val = win1_1.index t (1 : Fin 2) * 128 + 1 * (j 1).val; omega
  rw [h0]

/-- An index of the array is in point `t`'s block iff each coordinate is in the block's range on its axis. -/
theorem mem_blk1 (t : Fin cfg1.N) (i : S5000x128.Idx) :
    i ∈ ((cfg1.win 1).blk t).view.set ↔ ∀ a : Fin 2, win1_1.index t a * S1000x128.size a ≤ (i a).val ∧ (i a).val < win1_1.index t a * S1000x128.size a + S1000x128.size a := by
  show i ∈ ((View.whole main_v35_0).slice (win1_1.rect t)).set ↔ _
  rw [View.set_slice_whole, Rect.mem_set_unit]
  exact Iff.rfl

/-- Every index of the array is in the block of the point whose block index is its row over 1000. -/
theorem cover1 (i : S5000x128.Idx) :
    ∃ t : Fin cfg1.N, (cfg1.win 1).flush t = true ∧ i ∈ ((cfg1.win 1).blk t).view.set := by
  have hi0 : (i 0).val < 5000 := (i 0).isLt
  have hi1 : (i 1).val < 128 := (i 1).isLt
  obtain ⟨t, ht⟩ := idx_onto1 ⟨(i 0).val / 1000, by omega⟩
  have q0 : win1_1.index t (0 : Fin 2) = (i 0).val / 1000 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 1000 ≤ (i 0).val ∧ (i 0).val < win1_1.index t (0 : Fin 2) * 1000 + 1000; omega
  | ⟨1, _⟩ => show win1_1.index t (1 : Fin 2) * 128 ≤ (i 1).val ∧ (i 1).val < win1_1.index t (1 : Fin 2) * 128 + 128; omega

/-- The first output array: `-softplus` of the input array, entry by entry. -/
theorem region1_out0 (c : Dev nD) :
    (dat1 (F := Ideal) V c).arrAt 1 cfg1.N = nspArr (s := S5000x128) (V c main_v34) := by
  exact (dat1 (F := Ideal) V c).arrAt_eq_of_cover 1 (nspArr (s := S5000x128) (V c main_v34)) (fun t _ => flushed1_eq V c t) cover1

/-! ## The second output array -/

/-- The block indices over the five points: the input's block moves with the output's, which is `(q, 0)`, `q ≤ 4`. -/
theorem idx_facts2 : ∀ t : Fin cfg1.N, win1_0.index t (0 : Fin 2) = win1_2.index t (0 : Fin 2)
    ∧ win1_0.index t (1 : Fin 2) = win1_2.index t (1 : Fin 2)
    ∧ win1_2.index t (0 : Fin 2) ≤ 4
    ∧ win1_2.index t (1 : Fin 2) = 0 :=
  (by decide +kernel : ∀ t : Fin grid1.N, _)

/-- Every block `(q, 0)`, `q < 5`, is some point's. -/
theorem idx_onto2 : ∀ (q0 : Fin 5), ∃ t : Fin cfg1.N, win1_2.index t = ![q0.val, 0] :=
  (by decide +kernel : ∀ (q0 : Fin 5), ∃ t : Fin grid1.N, win1_2.index t = ![q0.val, 0])

/-- What point `t` writes back to the second output is block `t` of `-softplus` of the negated input array. -/
theorem flushed2_eq (c : Dev nD) (t : Fin cfg1.N) :
    (dat1 (F := Ideal) V c).flushed 2 t
      = ((cfg1.win 2).blk t).view.read (Elt Ideal) (nspNegArr (s := S5000x128) (V c main_v34)) := by
  show (cfg1.win 2).cut (grid1.coords t) ((dat1 (F := Ideal) V c).after 2 t) = _
  rw [after1_2]
  unfold out1_2
  rw [View.canon_unit_zero hz1]
  simp only [View.ld_unit_zero (S := S1000x128) hz1]
  obtain ⟨e0, e1, e2, e3⟩ := idx_facts2 t
  funext j
  refine (pay3_apply _ j).trans ?_
  show negSoftplus (0 - V c main_v34 (((cfg1.win 0).blk t).view.emb j)) = negSoftplus (0 - V c main_v34 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 128 + 1 * (j 1).val = win1_2.index t (1 : Fin 2) * 128 + 1 * (j 1).val; omega
  rw [h0]

/-- An index of the array is in point `t`'s block iff each coordinate is in the block's range on its axis. -/
theorem mem_blk2 (t : Fin cfg1.N) (i : S5000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v35_1).slice (win1_2.rect t)).set ↔ _
  rw [View.set_slice_whole, Rect.mem_set_unit]
  exact Iff.rfl

/-- Every index of the array is in the block of the point whose block index is its row over 1000. -/
theorem cover2 (i : S5000x128.Idx) :
    ∃ t : Fin cfg1.N, (cfg1.win 2).flush t = true ∧ i ∈ ((cfg1.win 2).blk t).view.set := by
  have hi0 : (i 0).val < 5000 := (i 0).isLt
  have hi1 : (i 1).val < 128 := (i 1).isLt
  obtain ⟨t, ht⟩ := idx_onto2 ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk2]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- The second output array: `-softplus` of the negated input array, entry by entry. -/
theorem region1_out1 (c : Dev nD) :
    (dat1 (F := Ideal) V c).arrAt 2 cfg1.N = nspNegArr (s := S5000x128) (V c main_v34) := by
  exact (dat1 (F := Ideal) V c).arrAt_eq_of_cover 2 (nspNegArr (s := S5000x128) (V c main_v34)) (fun t _ => flushed2_eq V c t) cover2

end Cert.KernelIdeal.Bridge

end
-- ==== Proof.HostHead.lean ====
/-
  The host operations before the first region, read at an index: the weight-difference matrix the projection multiplies
  by, the bias difference, and the two clamped columns of the edge list. Stated from ANY contents `X` of the buffers.
-/
import proofs.«406887_j58317065945293_3_alg».proof.Proof.Spec
import proofs.«406887_j58317065945293_3_alg».proof.Proof.Gen.KernelIdeal.Launch
import Idealize.ShloMosaic.Lib.StableHlo.Run
import Idealize.ShloMosaic.Lib.Pipeline.Value
import Idealize.ShloMosaic.Lib.ValueLayout

noncomputable section

open scoped BigOperators

namespace Cert.KernelIdeal.Bridge

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)
open Idealize.ShloMosaic.StableHlo (after)

variable (X : Valuation τ sig (Elt Ideal))

/-- A stretch of operations none of which writes the buffer leaves it as it was. -/
local macro "peel " l:ident : tactic =>
  `(tactic| refine (StableHlo.after_of_forall_not_mem _ _ (List.forall_iff_forall_mem.mp (by
      simp only [$l:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans ?_)

/-- The buffers after the four stretches of host operations that precede the first region. -/
abbrev headAfter : Valuation τ sig (Elt Ideal) :=
  after (hostOps0_3 (F := Ideal)) (after (hostOps0_2 (F := Ideal)) (after (hostOps0_1 (F := Ideal)) (after (hostOps0 (F := Ideal)) X)))

/-! ## Layout readings over literal shapes -/

/-- Row `r` of a matrix from column `o` on, flattened to a vector: entry `k` is the matrix at `(r, o + k)`. -/
private theorem rowSeg_apply {α : Type} {R C n : Nat} (r o : Nat) (A : (⟨2, ![R, C]⟩ : Shape).Idx → α)
    (hs : (⟨2, ![R, C]⟩ : Shape).Slices ![r, o] ⟨2, ![1, n]⟩) (hc : (⟨2, ![1, n]⟩ : Shape).ShapeCasts ⟨1, ![n]⟩)
    (k : Fin n) (r' : Fin R) (c' : Fin C) (hr : r'.val = r) (hc' : c'.val = o + k.val) :
    shapeCast ⟨1, ![n]⟩ (extractStridedSlice ⟨2, ![1, n]⟩ ![r, o] A hs) hc (ix1 k) = A (ix2 r' c') := by
  refine (shapeCast_1a_a_apply _ hc k).trans ?_
  exact extractStridedSlice_apply _ _ _ _ _ (fun ax => by
    match ax with
    | ⟨0, _⟩ => show r'.val = r + 0; omega
    | ⟨1, _⟩ => exact hc')

/-- A vector stood up as a one-column matrix: entry `(k, 0)` is the vector's entry `k`. -/
private theorem colVec_apply {α : Type} {n : Nat} (v : (⟨1, ![n]⟩ : Shape).Idx → α)
    (h : (⟨1, ![n]⟩ : Shape).BroadcastsInDim ⟨2, ![n, 1]⟩ (![0] : Fin 1 → Fin 2)) (k : Fin n) (u : Fin 1) :
    broadcastInDim ⟨2, ![n, 1]⟩ ![0] h v (ix2 k u) = v (ix1 k) :=
  broadcastInDim_apply _ _ _ _ _ (fun a => by
    match a with
    | ⟨0, _⟩ =>
      show k.val = if n = 1 then 0 else k.val
      split
      · have := k.isLt; omega
      · rfl)

/-- Two one-column matrices set side by side: column 0 is the first. -/
private theorem twoCols_left {α : Type} {n : Nat} (a b : (⟨2, ![n, 1]⟩ : Shape).Idx → α)
    (h : Shape.Concatenates [(⟨2, ![n, 1]⟩ : Shape), ⟨2, ![n, 1]⟩] ⟨2, ![n, 2]⟩ 1) (k : Fin n) (j : Fin 2) (hj : j.val = 0) :
    concatenate ⟨2, ![n, 2]⟩ 1 [⟨⟨2, ![n, 1]⟩, a⟩, ⟨⟨2, ![n, 1]⟩, b⟩] h (ix2 k j) = a (ix2 k (0 : Fin 1)) :=
  concatenate_pair_apply_left (1 : Fin 2) a b h (ix2 k j) rfl (ix2 k (0 : Fin 1)) (fun c => by
    match c with
    | ⟨0, _⟩ => rfl
    | ⟨1, _⟩ => exact hj.symm)

/-- Two one-column matrices set side by side: column 1 is the second. -/
private theorem twoCols_right {α : Type} {n : Nat} (a b : (⟨2, ![n, 1]⟩ : Shape).Idx → α)
    (h : Shape.Concatenates [(⟨2, ![n, 1]⟩ : Shape), ⟨2, ![n, 1]⟩] ⟨2, ![n, 2]⟩ 1) (k : Fin n) (j : Fin 2) (hj : j.val = 1) :
    concatenate ⟨2, ![n, 2]⟩ 1 [⟨⟨2, ![n, 1]⟩, a⟩, ⟨⟨2, ![n, 1]⟩, b⟩] h (ix2 k j) = b (ix2 k (0 : Fin 1)) :=
  concatenate_pair_apply_right (1 : Fin 2) a b h (ix2 k j) rfl rfl (ix2 k (0 : Fin 1)) (fun c hc => by
    match c, hc with
    | ⟨0, _⟩, _ => rfl
    | ⟨1, _⟩, hc => exact absurd rfl hc) (by show 0 + 1 = j.val; omega)

/-- The 128 x 2 matrix the first region multiplies by, entry by entry: column `j` is row 1 of the weights less row 0,
    over the columns `128 j … 128 j + 127`. -/
private theorem dw_read (W : SW.Idx → EReal) :
    concatenate S128x2 1
      [⟨S128x1, broadcastInDim S128x1 ![0] bcast_S128_S128x1_0
          (subf (F := Ideal) (φ := .f32)
            (shapeCast S128 (extractStridedSlice S1x128 ![1, 0] W slices_S2x256_S1x128_1_0) shapeCasts_S1x128_S128)
            (shapeCast S128 (extractStridedSlice S1x128 ![0, 0] W slices_S2x256_S1x128_0_0) shapeCasts_S1x128_S128))⟩,
       ⟨S128x1, broadcastInDim S128x1 ![0] bcast_S128_S128x1_0
          (subf (F := Ideal) (φ := .f32)
            (shapeCast S128 (extractStridedSlice S1x128 ![1, 128] W slices_S2x256_S1x128_1_128) shapeCasts_S1x128_S128)
            (shapeCast S128 (extractStridedSlice S1x128 ![0, 128] W slices_S2x256_S1x128_0_128) shapeCasts_S1x128_S128))⟩]
      concatenates_S128x1_S128x1_S128x2_d1 = dwArr W := by
  funext i
  obtain ⟨k, j, rfl⟩ : ∃ (k : Fin 128) (j : Fin 2), i = ix2 k j := ⟨i 0, i 1, eq_ix2 i⟩
  match j with
  | ⟨0, _⟩ =>
    refine (twoCols_left _ _ _ k _ rfl).trans ?_
    refine (colVec_apply _ _ k 0).trans ?_
    refine (subf_apply _ _ _).trans ?_
    show _ - _ = W (ix2 (1 : Fin 2) (⟨128 * 0 + k.val, by omega⟩ : Fin 256)) - W (ix2 (0 : Fin 2) (⟨128 * 0 + k.val, by omega⟩ : Fin 256))
    congr 1
    · exact rowSeg_apply 1 0 W _ _ k _ _ rfl (by show 128 * 0 + k.val = 0 + k.val; omega)
    · exact rowSeg_apply 0 0 W _ _ k _ _ rfl (by show 128 * 0 + k.val = 0 + k.val; omega)
  | ⟨1, _⟩ =>
    refine (twoCols_right _ _ _ k _ rfl).trans ?_
    refine (colVec_apply _ _ k 0).trans ?_
    refine (subf_apply _ _ _).trans ?_
    show _ - _ = W (ix2 (1 : Fin 2) (⟨128 * 1 + k.val, by omega⟩ : Fin 256)) - W (ix2 (0 : Fin 2) (⟨128 * 1 + k.val, by omega⟩ : Fin 256))
    congr 1
    · exact rowSeg_apply 1 128 W _ _ k _ _ rfl (by show 128 * 1 + k.val = 128 + k.val; omega)
    · exact rowSeg_apply 0 128 W _ _ k _ _ rfl (by show 128 * 1 + k.val = 128 + k.val; omega)

/-- The matrix the projection multiplies by holds the weight differences: column 0 the source half's, column 1 the target half's. -/
theorem head_dw : headAfter X (Proc.devRef .tc main_v12) = dwArr (X (Proc.devRef .tc main_arg1)) := by
  show after hostOps0_3 (after hostOps0_2 (after hostOps0_1 (after hostOps0 X))) (Proc.devRef .tc main_v12) = _
  peel hostOps0_3
  peel hostOps0_2
  peel hostOps0_1
  after_results
  exact dw_read _

/-- The scalar the host forms from the two biases: the second less the first. -/
private theorem bd_read (b : SB.Idx → EReal) :
    subf (F := Ideal) (φ := .f32)
      (shapeCast S_ (extractStridedSlice S1 ![1] b slices_S2_S1_1) shapeCasts_S1_S_)
      (shapeCast S_ (extractStridedSlice S1 ![0] b slices_S2_S1_0) shapeCasts_S1_S_) = biasDiff b := by
  funext i
  refine (subf_apply _ _ _).trans ?_
  show _ - _ = b (ix1 (1 : Fin 2)) - b (ix1 (0 : Fin 2))
  have hrm : ∀ u : Fin 1, (S1.rowMajor (ix1 u)).val = (S_.rowMajor i).val := fun u => by
    rw [Shape.rowMajor_val_one]
    show u.val = (Shape.rowMajorPi _ i).val
    rw [Shape.rowMajorPi_zero]; omega
  congr 1
  · refine (shapeCast_apply _ _ i (ix1 (0 : Fin 1)) (hrm 0)).trans ?_
    exact extractStridedSlice_apply _ _ _ _ _ (fun a => by match a with | ⟨0, _⟩ => rfl)
  · refine (shapeCast_apply _ _ i (ix1 (0 : Fin 1)) (hrm 0)).trans ?_
    exact extractStridedSlice_apply _ _ _ _ _ (fun a => by match a with | ⟨0, _⟩ => rfl)

/-- The scalar added to every edge's log-odds is the bias difference. -/
theorem head_bd : headAfter X (Proc.devRef .tc main_v17) = biasDiff (X (Proc.devRef .tc main_arg2)) := by
  show after hostOps0_3 (after hostOps0_2 (after hostOps0_1 (after hostOps0 X))) (Proc.devRef .tc main_v17) = _
  peel hostOps0_3
  peel hostOps0_2
  peel hostOps0_1
  after_results
  exact bd_read _

/-- Column `j` of the edge list, each entry the larger of it and 0, then the smaller of that and 49999. -/
private theorem clip_read (E : SE.Idx → BitVec 32) (o : Nat) (j : Fin 2) (ho : j.val = o)
    (hs : S640000x2.Slices ![0, o] S640000x1) :
    minsi (broadcastInDim S640000 ![] bcast_S_S640000 (constantI S_ 32 49999#32))
      (maxsi (broadcastInDim S640000 ![] bcast_S_S640000 (constantI S_ 32 0#32))
        (shapeCast S640000 (extractStridedSlice S640000x1 ![0, o] E hs) shapeCasts_S640000x1_S640000)) = clipCol E j := by
  funext i
  obtain ⟨e, rfl⟩ : ∃ e : Fin 640000, i = ix1 e := ⟨i 0, eq_ix1 i⟩
  have h : shapeCast S640000 (extractStridedSlice S640000x1 ![0, o] E hs) shapeCasts_S640000x1_S640000 (ix1 e) = E (ix2 e j) := by
    refine (shapeCast_apply _ _ (ix1 e) (ix2 e (0 : Fin 1)) ?_).trans ?_
    · rw [Shape.rowMajor_val_two, Shape.rowMajor_val_one]
      show e.val * 1 + 0 = e.val
      omega
    · exact slice2_axis1_apply o E hs e (0 : Fin 1) j (by show j.val = o + 0; omega)
  exact congrArg (fun x => IntOp.minsi 49999#32 (IntOp.maxsi 0#32 x)) h

/-- What the first clamp leaves, from any contents of the buffers it reads. -/
private theorem clipRun0 (Y : Valuation τ sig (Elt Ideal)) :
    after (hostOps0_1 (F := Ideal)) Y (Proc.devRef .tc main_v20)
      = minsi (broadcastInDim S640000 ![] bcast_S_S640000 (Y (Proc.devRef .tc main_c_0)))
          (maxsi (broadcastInDim S640000 ![] bcast_S_S640000 (Y (Proc.devRef .tc main_c))) (Y (Proc.devRef .tc main_v19))) := by
  after_results
  rfl

/-- What the second clamp leaves, from any contents of the buffers it reads. -/
private theorem clipRun1 (Y : Valuation τ sig (Elt Ideal)) :
    after (hostOps0_3 (F := Ideal)) Y (Proc.devRef .tc main_v23)
      = minsi (broadcastInDim S640000 ![] bcast_S_S640000 (Y (Proc.devRef .tc main_c_2)))
          (maxsi (broadcastInDim S640000 ![] bcast_S_S640000 (Y (Proc.devRef .tc main_c_1))) (Y (Proc.devRef .tc main_v22))) := by
  after_results
  rfl

/-- The source column as a vector, and the two bounds, after the first stretch. -/
private theorem run0_v19 (Y : Valuation τ sig (Elt Ideal)) :
    after (hostOps0 (F := Ideal)) Y (Proc.devRef .tc main_v19)
      = shapeCast S640000 (extractStridedSlice S640000x1 ![0, 0] (Y (Proc.devRef .tc main_arg3)) slices_S640000x2_S640000x1_0_0)
          shapeCasts_S640000x1_S640000 := by
  after_results
  rfl
private theorem run0_c (Y : Valuation τ sig (Elt Ideal)) :
    after (hostOps0 (F := Ideal)) Y (Proc.devRef .tc main_c) = constantI S_ 32 0#32 := by
  after_results
private theorem run0_c0 (Y : Valuation τ sig (Elt Ideal)) :
    after (hostOps0 (F := Ideal)) Y (Proc.devRef .tc main_c_0) = constantI S_ 32 49999#32 := by
  after_results

/-- The target column as a vector, and the two bounds, after the third stretch. -/
private theorem run2_v22 (Y : Valuation τ sig (Elt Ideal)) :
    after (hostOps0_2 (F := Ideal)) Y (Proc.devRef .tc main_v22)
      = shapeCast S640000 (extractStridedSlice S640000x1 ![0, 1] (Y (Proc.devRef .tc main_arg3)) slices_S640000x2_S640000x1_0_1)
          shapeCasts_S640000x1_S640000 := by
  after_results
  rfl
private theorem run2_c1 (Y : Valuation τ sig (Elt Ideal)) :
    after (hostOps0_2 (F := Ideal)) Y (Proc.devRef .tc main_c_1) = constantI S_ 32 0#32 := by
  after_results
private theorem run2_c2 (Y : Valuation τ sig (Elt Ideal)) :
    after (hostOps0_2 (F := Ideal)) Y (Proc.devRef .tc main_c_2) = constantI S_ 32 49999#32 := by
  after_results

/-- The source column of the edge list, clamped. -/
theorem head_u : headAfter X (Proc.devRef .tc main_v20) = clipCol (X (Proc.devRef .tc main_arg3)) 0 := by
  show after hostOps0_3 (after hostOps0_2 (after hostOps0_1 (after hostOps0 X))) (Proc.devRef .tc main_v20) = _
  peel hostOps0_3
  peel hostOps0_2
  rw [clipRun0, run0_v19, run0_c, run0_c0]
  exact clip_read _ 0 0 rfl _

/-- The target column of the edge list, clamped. -/
theorem head_v : headAfter X (Proc.devRef .tc main_v23) = clipCol (X (Proc.devRef .tc main_arg3)) 1 := by
  show after hostOps0_3 (after hostOps0_2 (after hostOps0_1 (after hostOps0 X))) (Proc.devRef .tc main_v23) = _
  have h3 : after hostOps0_1 (after hostOps0 X) (Proc.devRef .tc main_arg3) = X (Proc.devRef .tc main_arg3) := by
    peel hostOps0_1
    peel hostOps0
    rfl
  rw [clipRun1, run2_v22, run2_c1, run2_c2, h3]
  exact clip_read _ 1 1 rfl _

/-- No operation of these stretches writes the node table. -/
theorem head_h : headAfter X (Proc.devRef .tc main_arg0) = X (Proc.devRef .tc main_arg0) := by
  show after hostOps0_3 (after hostOps0_2 (after hostOps0_1 (after hostOps0 X))) (Proc.devRef .tc main_arg0) = _
  peel hostOps0_3
  peel hostOps0_2
  peel hostOps0_1
  peel hostOps0
  rfl

end Cert.KernelIdeal.Bridge

end
-- ==== Proof.HostMid.lean ====
/-
  The host operations between the two regions, read at an index: each edge's log-odds is the first projection column at
  its source node plus the second at its target node plus the bias difference, laid out 128 edges to a row.
  Stated from ANY contents `X` of the buffers in which the two index vectors hold row numbers of the table.

  A lookup of a 50000-entry table at an index word `x` goes in three steps: a negative `x` is moved up by 50000; the
  moved word is tested for `0 ≤ · ≤ 49999`; the table is read at the moved word clamped into `0 … 49999`, and the
  entry is kept where the test holds (a fill value stands elsewhere). For a word that already is a row number,
  `0 ≤ x ≤ 49999`, nothing is moved, the test holds, and the clamp is `rowOf x`: the lookup is the table at `rowOf x`.
  The two tables are the two columns of the projection array; the two lookups are added, the bias difference is added to
  every entry, and entry `128 r + l` of the sum is what sits at row `r`, lane `l`.
-/
import proofs.«406887_j58317065945293_3_alg».proof.Proof.Spec
import proofs.«406887_j58317065945293_3_alg».proof.Proof.Gen.KernelIdeal.Launch
import Idealize.ShloMosaic.Lib.StableHlo.Run
import Idealize.ShloMosaic.Lib.Pipeline.Value
import Idealize.ShloMosaic.Lib.ValueLayout
import Idealize.ShloMosaic.PureOps.Reduce

noncomputable section

open scoped BigOperators

namespace Cert.KernelIdeal.Bridge

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)
open Idealize.ShloMosaic.StableHlo (after)

variable (X : Valuation τ sig (Elt Ideal))

namespace HostMid

/-! ## The stages as whole arrays -/

/-- The index vector with each negative entry moved up by the table's length. -/
def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 50000#32))) idx

/-- The wrapped index vector as a one-column array of start indices. -/
def startIdx (idx : IVec S640000 32) : IVec S640000x1 32 :=
  broadcastInDim S640000x1 ![0] bcast_S640000_S640000x1_0 (wrapIdx idx)

/-- Entry by entry: does the start index lie in the table, `0 ≤ · ≤ 49999` (the conjunction folded over the one column). -/
def validIdx (idx : IVec S640000 32) : IVec S640000 1 :=
  Host.reduce IntOp.andi
    (andi (cmpi .sge (startIdx idx) (broadcastInDim S640000x1 ![] bcast_S_S640000x1 (constantI S_ 32 0#32)))
      (cmpi .sle (startIdx idx) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- A table of 50000 entries looked up at an index vector: where the start index lies in the table, the table's entry
    there; elsewhere a fill value. -/
def takeTerm (tbl : FVec Ideal S50000 .f32) (idx : IVec S640000 32) : FVec Ideal S640000 .f32 :=
  select (validIdx idx) (Host.gather gather_S50000_S640000x1_S640000_n_0_n_n_0_1_1 tbl (startIdx idx))
    (broadcastInDim S640000 ![] bcast_S_S640000 (constant (F := Ideal) S_ .f32 0x7FC00000#32))

/-- Column 0 of a [50000,2] array as a vector: the slice of that column, its unit axis dropped. -/
def col0 (nd : FVec Ideal S50000x2 .f32) : FVec Ideal S50000 .f32 :=
  shapeCast S50000 (extractStridedSlice S50000x1 ![0, 0] nd slices_S50000x2_S50000x1_0_0) shapeCasts_S50000x1_S50000

/-- Column 1 likewise. -/
def col1 (nd : FVec Ideal S50000x2 .f32) : FVec Ideal S50000 .f32 :=
  shapeCast S50000 (extractStridedSlice S50000x1 ![0, 1] nd slices_S50000x2_S50000x1_0_1) shapeCasts_S50000x1_S50000

/-- Two vectors of 640000 entries added, a scalar added to every entry of the sum, the result laid out 128 entries to a row. -/
def sumArr (a b : FVec Ideal S640000 .f32) (bd : FVec Ideal S_ .f32) : FVec Ideal S5000x128 .f32 :=
  shapeCast S5000x128 (addf (addf a b) (broadcastInDim S640000 ![] bcast_S_S640000 bd)) shapeCasts_S640000_S5000x128

/-! ## Words: signed comparisons decided from the integers the words encode -/

theorem cmpi_slt_zero {x y : BitVec 32} (h : y.toInt ≤ x.toInt) : IntOp.cmpi .slt x y = 0#1 := by
  have hb : x.slt y = false := decide_eq_false (Int.not_lt.mpr h)
  show BitVec.ofBool (x.slt y) = 0#1
  rw [hb]; rfl

theorem cmpi_sge_one {x y : BitVec 32} (h : y.toInt ≤ x.toInt) : IntOp.cmpi .sge x y = 1#1 := by
  have hb : y.sle x = true := decide_eq_true h
  show BitVec.ofBool (y.sle x) = 1#1
  rw [hb]; rfl

theorem cmpi_sle_one {x y : BitVec 32} (h : x.toInt ≤ y.toInt) : IntOp.cmpi .sle x y = 1#1 := by
  have hb : x.sle y = true := decide_eq_true h
  show BitVec.ofBool (x.sle y) = 1#1
  rw [hb]; rfl

theorem toInt_0 : (0#32 : BitVec 32).toInt = 0 := by decide
theorem toInt_49999 : (49999#32 : BitVec 32).toInt = 49999 := by decide

/-- A conjunction of bits that are all `1`, folded from `1`, is `1`. -/
theorem fold_andi_one {ι : Type} (s : Finset ι) (x : ι → BitVec 1) (h : ∀ i ∈ s, x i = 1#1) :
    s.fold IntOp.andi 1#1 x = 1#1 := by
  induction s using Finset.cons_induction with
  | empty => rfl
  | cons a S ha ih =>
    rw [Finset.fold_cons, ih (fun i hi => h i (Finset.mem_cons.mpr (Or.inr hi))), h a (Finset.mem_cons.mpr (Or.inl rfl))]
    rfl

/-! ## The lookup read at an entry, the index vector holding row numbers of the table -/

section TakeAt
variable (tbl : FVec Ideal S50000 .f32) (idx : IVec S640000 32)
variable (hidx : ∀ i, 0 ≤ (idx i).toInt ∧ (idx i).toInt ≤ 49999)
include hidx

/-- No entry is negative, so none is moved. -/
theorem wrapIdx_apply (k : S640000.Idx) : wrapIdx idx k = idx k := by
  unfold wrapIdx
  rw [select_apply]
  have hc : cmpi .slt idx (broadcastInDim S640000 ![] bcast_S_S640000 (constantI S_ 32 0#32)) k = 0#1 := by
    show IntOp.cmpi .slt (idx k) 0#32 = 0#1
    exact cmpi_slt_zero (by rw [toInt_0]; exact (hidx k).1)
  rw [hc, select_zero]

/-- Every start index lies in the table. -/
theorem validIdx_apply (j : S640000.Idx) : validIdx idx j = 1#1 := by
  unfold validIdx
  rw [Host.reduce_eq_fold]
  refine fold_andi_one _ _ (fun i _ => ?_)
  obtain ⟨k, hk⟩ : ∃ k, startIdx idx i = wrapIdx idx k := ⟨_, rfl⟩
  show IntOp.andi (IntOp.cmpi .sge (startIdx idx i) 0#32) (IntOp.cmpi .sle (startIdx idx i) 49999#32) = 1#1
  rw [hk, wrapIdx_apply idx hidx k,
    cmpi_sge_one (by rw [toInt_0]; exact (hidx k).1), cmpi_sle_one (by rw [toInt_49999]; exact (hidx k).2)]
  rfl

omit hidx in
/-- The one column of the start indices is the wrapped index vector. -/
theorem startIdx_apply (e : Fin 640000) : startIdx idx (ix2 e (0 : Fin 1)) = wrapIdx idx (ix1 e) := by
  unfold startIdx
  refine broadcastInDim_apply _ _ _ _ _ (fun a => ?_)
  match a with
  | ⟨0, _⟩ => rfl

omit hidx in
/-- The gather at entry `e`: the table at the start index of row `e`, read as a signed integer and clamped into the table. -/
theorem gather_apply (si : IVec S640000x1 32) (e : Fin 640000) :
    Host.gather gather_S50000_S640000x1_S640000_n_0_n_n_0_1_1 tbl si (ix1 e)
      = tbl (ix1 (rowOf (si (ix2 e (0 : Fin 1))))) := by
  unfold Host.gather
  congr 1
  funext a
  obtain rfl : a = 0 := Subsingleton.elim _ _
  refine Fin.ext ?_
  show gather_S50000_S640000x1_S640000_n_0_n_n_0_1_1.start (ix1 e) si 0
      + gather_S50000_S640000x1_S640000_n_0_n_n_0_1_1.batchCoord (ix1 e) 0
      + gather_S50000_S640000x1_S640000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S50000_S640000x1_S640000_n_0_n_n_0_1_1.startIndexMap from List.mem_singleton.mpr rfl)]
  have hsi : gather_S50000_S640000x1_S640000_n_0_n_n_0_1_1.siIdx (ix1 e)
      ⟨List.idxOf (0 : Fin 1) gather_S50000_S640000x1_S640000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE LOOKUP AT ENTRY `e`: the table at the row the index word names. -/
theorem takeTerm_apply (e : Fin 640000) : takeTerm tbl idx (ix1 e) = tbl (ix1 (rowOf (idx (ix1 e)))) := by
  unfold takeTerm
  rw [select_apply, validIdx_apply idx hidx, select_one, gather_apply, startIdx_apply, wrapIdx_apply idx hidx]

end TakeAt

/-! ## The layout stages read at an entry -/

theorem col0_apply (nd : FVec Ideal S50000x2 .f32) (n : Fin 50000) : col0 nd (ix1 n) = nd (ix2 n (0 : Fin 2)) := by
  unfold col0
  refine (shapeCast_apply _ _ (ix1 n) (ix2 n (0 : Fin 1)) ?_).trans ?_
  · rw [Shape.rowMajor_val_two, Shape.rowMajor_val_one]
    show n.val * 1 + 0 = n.val
    omega
  · refine extractStridedSlice_apply _ _ _ _ (ix2 n (0 : Fin 2)) (fun a => ?_)
    match a with
    | ⟨0, _⟩ => exact (Nat.zero_add _).symm
    | ⟨1, _⟩ => rfl

theorem col1_apply (nd : FVec Ideal S50000x2 .f32) (n : Fin 50000) : col1 nd (ix1 n) = nd (ix2 n (1 : Fin 2)) := by
  unfold col1
  refine (shapeCast_apply _ _ (ix1 n) (ix2 n (0 : Fin 1)) ?_).trans ?_
  · rw [Shape.rowMajor_val_two, Shape.rowMajor_val_one]
    show n.val * 1 + 0 = n.val
    omega
  · refine extractStridedSlice_apply _ _ _ _ (ix2 n (1 : Fin 2)) (fun a => ?_)
    match a with
    | ⟨0, _⟩ => exact (Nat.zero_add _).symm
    | ⟨1, _⟩ => rfl

theorem sumArr_apply (a b : FVec Ideal S640000 .f32) (bd : FVec Ideal S_ .f32) (i : S5000x128.Idx) :
    sumArr a b bd i = (a (ix1 (flat i)) + b (ix1 (flat i))) + bd ix0 := by
  unfold sumArr
  refine (shapeCast_apply _ _ i (ix1 (flat i)) ?_).trans ?_
  · rw [Shape.rowMajor_val_one, Shape.rowMajor_val_two]
    show 128 * (i 0).val + (i 1).val = (i 0).val * 128 + (i 1).val
    omega
  · rw [addf_apply, addf_apply]
    congr 1
    exact broadcastInDim_apply _ _ _ _ ix0 (fun a => a.elim0)

/-! ## The four stretches, each from ANY contents `Y` of the buffers: what it leaves in the buffers read later -/

section Stretches
variable (Y : Valuation τ sig (Elt Ideal))

theorem s1_v26 : after (hostOps1 (F := Ideal)) Y (Proc.devRef .tc main_v26) = col0 (Y (Proc.devRef .tc main_v24)) := by
  after_results_simp
  rfl
theorem s1_v28 : after (hostOps1 (F := Ideal)) Y (Proc.devRef .tc main_v28) = col1 (Y (Proc.devRef .tc main_v24)) := by
  after_results_simp
  rfl
theorem s1_v20 : after (hostOps1 (F := Ideal)) Y (Proc.devRef .tc main_v20) = Y (Proc.devRef .tc main_v20) := by
  after_results_simp
theorem s1_v23 : after (hostOps1 (F := Ideal)) Y (Proc.devRef .tc main_v23) = Y (Proc.devRef .tc main_v23) := by
  after_results_simp
theorem s1_v17 : after (hostOps1 (F := Ideal)) Y (Proc.devRef .tc main_v17) = Y (Proc.devRef .tc main_v17) := by
  after_results_simp

theorem s2_v28 : after (hostOps1_1 (F := Ideal)) Y (Proc.devRef .tc main_v28) = Y (Proc.devRef .tc main_v28) := by
  after_results_simp
theorem s2_v23 : after (hostOps1_1 (F := Ideal)) Y (Proc.devRef .tc main_v23) = Y (Proc.devRef .tc main_v23) := by
  after_results_simp
theorem s2_v17 : after (hostOps1_1 (F := Ideal)) Y (Proc.devRef .tc main_v17) = Y (Proc.devRef .tc main_v17) := by
  after_results_simp

theorem s3_v29 : after (hostOps1_2 (F := Ideal)) Y (Proc.devRef .tc main_v29) = Y (Proc.devRef .tc main_v29) := by
  after_results_simp
theorem s3_v17 : after (hostOps1_2 (F := Ideal)) Y (Proc.devRef .tc main_v17) = Y (Proc.devRef .tc main_v17) := by
  after_results_simp

theorem s4_v34 : after (hostOps1_3 (F := Ideal)) Y (Proc.devRef .tc main_v34)
    = sumArr (Y (Proc.devRef .tc main_v29)) (Y (Proc.devRef .tc main_v30)) (Y (Proc.devRef .tc main_v17)) := by
  after_results_simp
  rfl

/-- The first lookup's stretch leaves in its result the lookup of the table it read at the index vector it read. -/
theorem take_u : after (hostOps1_1 (F := Ideal)) Y (Proc.devRef .tc main_v29)
      = takeTerm (Y (Proc.devRef .tc main_v26)) (Y (Proc.devRef .tc main_v20)) := by
  after_results_simp
  simp only [StableHlo.TRef.ofBuf, StableHlo.TRef.toBuf, cast_eq, takeTerm, validIdx, startIdx, wrapIdx]

/-- The second lookup's stretch likewise. -/
theorem take_v : after (hostOps1_2 (F := Ideal)) Y (Proc.devRef .tc main_v30)
      = takeTerm (Y (Proc.devRef .tc main_v28)) (Y (Proc.devRef .tc main_v23)) := by
  after_results_simp
  simp only [StableHlo.TRef.ofBuf, StableHlo.TRef.toBuf, cast_eq, takeTerm, validIdx, startIdx, wrapIdx]

end Stretches

end HostMid

open HostMid

/-! ## The four stretches composed -/

/-- The buffers after the four stretches of host operations between the two regions. -/
abbrev midAfter : Valuation τ sig (Elt Ideal) :=
  after (hostOps1_3 (F := Ideal)) (after (hostOps1_2 (F := Ideal)) (after (hostOps1_1 (F := Ideal)) (after (hostOps1 (F := Ideal)) X)))

/-- The second region's input: at row `r`, lane `l`, the log-odds of edge `128 r + l`. -/
theorem mid_diff (hu : RowsOK (X (Proc.devRef .tc main_v20))) (hv : RowsOK (X (Proc.devRef .tc main_v23))) :
    midAfter X (Proc.devRef .tc main_v34)
      = midArr (X (Proc.devRef .tc main_v24)) (X (Proc.devRef .tc main_v20)) (X (Proc.devRef .tc main_v23)) (X (Proc.devRef .tc main_v17)) := by
  unfold midAfter
  rw [s4_v34, s3_v29, take_v, s3_v17, take_u, s2_v28, s2_v23, s2_v17, s1_v26, s1_v28, s1_v20, s1_v23, s1_v17]
  funext i
  rw [sumArr_apply, takeTerm_apply _ _ hu, takeTerm_apply _ _ hv, col0_apply, col1_apply]
  rfl

end Cert.KernelIdeal.Bridge

end
-- ==== Proof.HostTail.lean ====
/-
  The host operations after the second region, read at an index: the two lane-dense outputs are flattened back to one
  entry per edge and laid side by side as the result's two columns. Stated from ANY contents `X` of the buffers.
-/
import proofs.«406887_j58317065945293_3_alg».proof.Proof.Spec
import proofs.«406887_j58317065945293_3_alg».proof.Proof.Gen.KernelIdeal.Launch
import Idealize.ShloMosaic.Lib.StableHlo.Run
import Idealize.ShloMosaic.Lib.Pipeline.Value
import Idealize.ShloMosaic.Lib.ValueLayout

noncomputable section

open scoped BigOperators

namespace Cert.KernelIdeal.Bridge

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)
open Idealize.ShloMosaic.StableHlo (after)

variable (X : Valuation τ sig (Elt Ideal))

/-! ## Layout readings over literal shapes -/

/-- A vector stood up as a one-column matrix: entry `(k, 0)` is the vector's entry `k`. -/
private theorem colVec_apply {α : Type} {n : Nat} (v : (⟨1, ![n]⟩ : Shape).Idx → α)
    (h : (⟨1, ![n]⟩ : Shape).BroadcastsInDim ⟨2, ![n, 1]⟩ (![0] : Fin 1 → Fin 2)) (k : Fin n) (u : Fin 1) :
    broadcastInDim ⟨2, ![n, 1]⟩ ![0] h v (ix2 k u) = v (ix1 k) :=
  broadcastInDim_apply _ _ _ _ _ (fun a => by
    match a with
    | ⟨0, _⟩ =>
      show k.val = if n = 1 then 0 else k.val
      split
      · have := k.isLt; omega
      · rfl)

/-- Two one-column matrices set side by side: column 0 is the first. -/
private theorem twoCols_left {α : Type} {n : Nat} (a b : (⟨2, ![n, 1]⟩ : Shape).Idx → α)
    (h : Shape.Concatenates [(⟨2, ![n, 1]⟩ : Shape), ⟨2, ![n, 1]⟩] ⟨2, ![n, 2]⟩ 1) (k : Fin n) (j : Fin 2) (hj : j.val = 0) :
    concatenate ⟨2, ![n, 2]⟩ 1 [⟨⟨2, ![n, 1]⟩, a⟩, ⟨⟨2, ![n, 1]⟩, b⟩] h (ix2 k j) = a (ix2 k (0 : Fin 1)) :=
  concatenate_pair_apply_left (1 : Fin 2) a b h (ix2 k j) rfl (ix2 k (0 : Fin 1)) (fun c => by
    match c with
    | ⟨0, _⟩ => rfl
    | ⟨1, _⟩ => exact hj.symm)

/-- Two one-column matrices set side by side: column 1 is the second. -/
private theorem twoCols_right {α : Type} {n : Nat} (a b : (⟨2, ![n, 1]⟩ : Shape).Idx → α)
    (h : Shape.Concatenates [(⟨2, ![n, 1]⟩ : Shape), ⟨2, ![n, 1]⟩] ⟨2, ![n, 2]⟩ 1) (k : Fin n) (j : Fin 2) (hj : j.val = 1) :
    concatenate ⟨2, ![n, 2]⟩ 1 [⟨⟨2, ![n, 1]⟩, a⟩, ⟨⟨2, ![n, 1]⟩, b⟩] h (ix2 k j) = b (ix2 k (0 : Fin 1)) :=
  concatenate_pair_apply_right (1 : Fin 2) a b h (ix2 k j) rfl rfl (ix2 k (0 : Fin 1)) (fun c hc => by
    match c, hc with
    | ⟨0, _⟩, _ => rfl
    | ⟨1, _⟩, hc => exact absurd rfl hc) (by show 0 + 1 = j.val; omega)

/-- The two lane-dense outputs, each flattened edge by edge (edge `e` sits at row `e / 128`, lane `e % 128`) and stood
    up as a column, set side by side: the result's two columns. -/
private theorem tail_read (o0 o1 : (⟨2, ![5000, 128]⟩ : Shape).Idx → EReal) :
    concatenate S640000x2 1
      [⟨S640000x1, broadcastInDim S640000x1 ![0] bcast_S640000_S640000x1_0 (shapeCast S640000 o0 shapeCasts_S5000x128_S640000)⟩,
       ⟨S640000x1, broadcastInDim S640000x1 ![0] bcast_S640000_S640000x1_0 (shapeCast S640000 o1 shapeCasts_S5000x128_S640000)⟩]
      concatenates_S640000x1_S640000x1_S640000x2_d1 = tailArr o0 o1 := by
  funext i
  obtain ⟨e, j, rfl⟩ : ∃ (e : Fin 640000) (j : Fin 2), i = ix2 e j := ⟨i 0, i 1, eq_ix2 i⟩
  have hflat : ∀ o : (⟨2, ![5000, 128]⟩ : Shape).Idx → EReal,
      shapeCast S640000 o shapeCasts_S5000x128_S640000 (ix1 e) = o (unflat e) := fun o =>
    shapeCast_apply o _ (ix1 e) (unflat e) (by
      rw [Shape.rowMajor_val_two, Shape.rowMajor_val_one]
      show e.val / 128 * 128 + e.val % 128 = e.val
      omega)
  match j with
  | ⟨0, _⟩ =>
    refine (twoCols_left _ _ _ e _ rfl).trans ?_
    refine (colVec_apply _ _ e 0).trans ?_
    refine (hflat o0).trans ?_
    show o0 (unflat e) = if (0 : ℕ) = 0 then o0 (unflat e) else o1 (unflat e)
    rw [if_pos rfl]
  | ⟨1, _⟩ =>
    refine (twoCols_right _ _ _ e _ rfl).trans ?_
    refine (colVec_apply _ _ e 0).trans ?_
    refine (hflat o1).trans ?_
    show o1 (unflat e) = if (1 : ℕ) = 0 then o0 (unflat e) else o1 (unflat e)
    rw [if_neg Nat.one_ne_zero]

/-- The result: column 0 from the first lane-dense output, column 1 from the second, each at the edge's row and lane. -/
theorem tail_out : after (hostOps2 (F := Ideal)) X (Proc.devRef .tc main_v40)
    = tailArr (X (Proc.devRef .tc main_v35_0)) (X (Proc.devRef .tc main_v35_1)) := by
  after_results
  exact tail_read _ _

end Cert.KernelIdeal.Bridge

end
-- ==== Proof.KernelValue.lean ====
/-
  The kernel program's result buffer as one function of the argument arrays: the last boundary's contents walked back
  through the host tail, the softplus region, the host operations between the regions, the projection region and the host
  operations before it.
-/
import proofs.«406887_j58317065945293_3_alg».proof.Proof.Spec
import proofs.«406887_j58317065945293_3_alg».proof.Proof.KernelPure
import proofs.«406887_j58317065945293_3_alg».proof.Proof.Region0
import proofs.«406887_j58317065945293_3_alg».proof.Proof.Region1
import proofs.«406887_j58317065945293_3_alg».proof.Proof.HostHead
import proofs.«406887_j58317065945293_3_alg».proof.Proof.HostMid
import proofs.«406887_j58317065945293_3_alg».proof.Proof.HostTail
import proofs.«406887_j58317065945293_3_alg».proof.Proof.Gen.KernelIdeal.Frame

noncomputable section

open scoped BigOperators

namespace Cert.KernelIdeal.Bridge

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)
open Idealize.ShloMosaic.StableHlo (after)

variable (m : (ℓ : Loc nD τ sig) → Buf (Elt Ideal) ℓ) (ρ : Dev nD → PrngReg)

/-- The node table as the first region finds it is the argument array. -/
theorem V4_arg0 (c : Dev nD) : V4 (F := Ideal) m ρ c main_arg0 = m ((c : Thread nD τ).loc main_arg0) :=
  head_h (W0 m ρ c)

/-- The matrix the first region multiplies by is the weight-difference matrix of the argument `W`. -/
theorem V4_v12 (c : Dev nD) : V4 (F := Ideal) m ρ c main_v12 = dwArr (m ((c : Thread nD τ).loc main_arg1)) :=
  head_dw (W0 m ρ c)

/-- The projections: the first region's output array at its exit. -/
theorem W5_v24 (c : Dev nD) : W5 (F := Ideal) m ρ c (Proc.devRef .tc main_v24)
    = matProd (m ((c : Thread nD τ).loc main_arg0)) (dwArr (m ((c : Thread nD τ).loc main_arg1))) := by
  refine (W5_arr m ρ c 2).trans ?_
  rw [region0_value, V4_arg0, V4_v12]

/-- The first region leaves the clamped source column as the host operations before it wrote it. -/
theorem W5_v20 (c : Dev nD) : W5 (F := Ideal) m ρ c (Proc.devRef .tc main_v20) = clipCol (m ((c : Thread nD τ).loc main_arg3)) 0 :=
  (W5_of_ne m ρ c main_v20 (fun w => by fin_cases w <;> decide)).trans (head_u (W0 m ρ c))

/-- The same for the clamped target column. -/
theorem W5_v23 (c : Dev nD) : W5 (F := Ideal) m ρ c (Proc.devRef .tc main_v23) = clipCol (m ((c : Thread nD τ).loc main_arg3)) 1 :=
  (W5_of_ne m ρ c main_v23 (fun w => by fin_cases w <;> decide)).trans (head_v (W0 m ρ c))

/-- The same for the bias difference. -/
theorem W5_v17 (c : Dev nD) : W5 (F := Ideal) m ρ c (Proc.devRef .tc main_v17) = biasDiff (m ((c : Thread nD τ).loc main_arg2)) :=
  (W5_of_ne m ρ c main_v17 (fun w => by fin_cases w <;> decide)).trans (head_bd (W0 m ρ c))

/-- The second region's input: every edge's log-odds, in the lane-dense layout. -/
theorem V9_v34 (c : Dev nD) : V9 (F := Ideal) m ρ c main_v34
    = midArr (matProd (m ((c : Thread nD τ).loc main_arg0)) (dwArr (m ((c : Thread nD τ).loc main_arg1))))
        (clipCol (m ((c : Thread nD τ).loc main_arg3)) 0) (clipCol (m ((c : Thread nD τ).loc main_arg3)) 1)
        (biasDiff (m ((c : Thread nD τ).loc main_arg2))) := by
  have e := mid_diff (W5 m ρ c) (by rw [W5_v20]; exact rowsOK_clipCol _ _) (by rw [W5_v23]; exact rowsOK_clipCol _ _)
  rw [W5_v24, W5_v20, W5_v23, W5_v17] at e
  exact e

/-- THE KERNEL'S RESULT: the last boundary's contents at the result buffer are `kOut` of the four argument arrays. -/
theorem kernel_value (c : Dev nD) : W11 (F := Ideal) m ρ c (Proc.devRef .tc main_v40)
    = kOut (m ((c : Thread nD τ).loc main_arg0)) (m ((c : Thread nD τ).loc main_arg1)) (m ((c : Thread nD τ).loc main_arg2))
        (m ((c : Thread nD τ).loc main_arg3)) := by
  have e0 := (W10_arr m ρ c 1).trans (region1_out0 (V9 m ρ) c)
  have e1 := (W10_arr m ρ c 2).trans (region1_out1 (V9 m ρ) c)
  rw [V9_v34] at e0 e1
  refine (tail_out (W10 m ρ c)).trans ?_
  refine (congrArg₂ tailArr e0 e1).trans ?_
  exact stages_eq_kOut _ _ _ _

end Cert.KernelIdeal.Bridge

end
-- ==== Proof.RefValue.lean ====
/-
  The reference program's result read at an index: both logits of the edge, then the two-class log-softmax.
  Stated from ANY contents `X` of the buffers in which the edge list holds row numbers of the node table.

  The 43 operations are read in three stretches. The first leaves the two gathered arrays: row `e` of each is the row of
  the node table that column 0 (column 1) of the edge list names at `e` — an entry in range is not negative, so the wrap of
  negative indices leaves it, and the gather's clamp of the start index into `0 … 49999` is `rowOf`. The second joins them
  side by side (256 features), contracts them with the transposed weights and adds the biases: entry `(e, c)` is
  `logit … e c`. The third is the log-softmax along each row of two: the row's maximum folded from minus infinity, the
  shifted entries, the logarithm of the sum from zero of their exponentials: entry `(e, c)` is `logSoftmax2 (row e) c`.
-/
import proofs.«406887_j58317065945293_3_alg».proof.Proof.Spec
import proofs.«406887_j58317065945293_3_alg».proof.Proof.RefRun
import Idealize.ShloMosaic.Lib.Pipeline.Value
import Idealize.ShloMosaic.Lib.ValueLayout
import Idealize.ShloMosaic.PureOps.Ideal.Laws

noncomputable section

open scoped BigOperators

namespace Cert.ReferenceIdeal.Bridge

open Cert.ReferenceIdeal Cert.ReferenceIdeal.Gen Cert.ReferenceIdeal.ValueP Cert.EdgeSpec
open Idealize.ShloMosaic Idealize.ShloMosaic.TcCoe Idealize.ShloMosaic.ValueIdx Idealize.SL.Sem
open Idealize.ShloMosaic.StableHlo (after)

variable (X : Valuation τ sig (Elt Ideal))

section Stages
open Idealize.ShloMosaic.StableHlo

/-! ## The run cut in three: the two gathers, the logits, the log-softmax -/

section Cut
variable {F : FTy → Type} [FloatOps F]

/-- The operations up to the two gathered arrays. -/
abbrev opsG : List (HloOp τ sig (Elt F)) :=
  [ unary main_arg3 main_v0 ((extractStridedSlice S640000x1 ![0, 0] · slices_S640000x2_S640000x1_0_0) : (⟨S640000x2, .i32⟩ : BufTy).Contents (Elt F) → (⟨S640000x1, .i32⟩ : BufTy).Contents (Elt F)),
    reshape main_v0 main_v1 rfl shapeCasts_S640000x1_S640000,
    nullary main_c (constantI S_ 32 0#32),
    unary main_c main_v2 (broadcastInDim S640000 ![] bcast_S_S640000 : (⟨S_, .i32⟩ : BufTy).Contents (Elt F) → (⟨S640000, .i32⟩ : BufTy).Contents (Elt F)),
    binary main_v1 main_v2 main_v3 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v4 (broadcastInDim S640000 ![] bcast_S_S640000 : (⟨S_, .i32⟩ : BufTy).Contents (Elt F) → (⟨S640000, .i32⟩ : BufTy).Contents (Elt F)),
    binary main_v1 main_v4 main_v5 (addi : (⟨S640000, .i32⟩ : BufTy).Contents (Elt F) → (⟨S640000, .i32⟩ : BufTy).Contents (Elt F) → (⟨S640000, .i32⟩ : BufTy).Contents (Elt F)),
    ternary main_v3 main_v5 main_v1 main_v6 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v6 main_v7 (broadcastInDim S640000x1 ![0] bcast_S640000_S640000x1_0 : (⟨S640000, .i32⟩ : BufTy).Contents (Elt F) → (⟨S640000x1, .i32⟩ : BufTy).Contents (Elt F)),
    binary main_arg0 main_v7 main_v8 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_arg3 main_v9 ((extractStridedSlice S640000x1 ![0, 1] · slices_S640000x2_S640000x1_0_1) : (⟨S640000x2, .i32⟩ : BufTy).Contents (Elt F) → (⟨S640000x1, .i32⟩ : BufTy).Contents (Elt F)),
    reshape main_v9 main_v10 rfl shapeCasts_S640000x1_S640000,
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v10 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 50000#32),
    unary main_c_2 main_v13 (broadcastInDim S640000 ![] bcast_S_S640000 : (⟨S_, .i32⟩ : BufTy).Contents (Elt F) → (⟨S640000, .i32⟩ : BufTy).Contents (Elt F)),
    binary main_v10 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v10 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

/-- From the gathered arrays to the logits. -/
abbrev opsL : List (HloOp τ sig (Elt F)) :=
  [ binary main_v8 main_v17 main_v18 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    unary main_arg1 main_v19 ((transpose S256x2 [1, 0] · transposes_S2x256_S256x2_1_0) : (⟨S2x256, .f32⟩ : BufTy).Contents (Elt F) → (⟨S256x2, .f32⟩ : BufTy).Contents (Elt F)),
    binary main_v18 main_v19 main_v20 ((fun l r => Host.dotGeneral dot_S640000x256_S256x2_S640000x2_1_0_0_1_n_n none l r) : (⟨S640000x256, .f32⟩ : BufTy).Contents (Elt F) → (⟨S256x2, .f32⟩ : BufTy).Contents (Elt F) → (⟨S640000x2, .f32⟩ : BufTy).Contents (Elt F)),
    unary main_arg2 main_v21 (broadcastInDim S1x2 ![1] bcast_S2_S1x2_1 : (⟨S2, .f32⟩ : BufTy).Contents (Elt F) → (⟨S1x2, .f32⟩ : BufTy).Contents (Elt F)),
    unary main_v21 main_v22 (broadcastInDim S640000x2 ![0, 1] bcast_S1x2_S640000x2_0_1 : (⟨S1x2, .f32⟩ : BufTy).Contents (Elt F) → (⟨S640000x2, .f32⟩ : BufTy).Contents (Elt F)),
    binary main_v20 main_v22 main_v23 (addf : (⟨S640000x2, .f32⟩ : BufTy).Contents (Elt F) → (⟨S640000x2, .f32⟩ : BufTy).Contents (Elt F) → (⟨S640000x2, .f32⟩ : BufTy).Contents (Elt F)) ]

/-- The log-softmax's operations as the run spells them, over typed references. -/
abbrev opsT : List (HloOp τ sig (Elt F)) :=
  [ TRef.nullary (TRef.of (T := ⟨S_, .f32⟩) main_call0_cst) (constant S_ .f32 0xFF800000#32),
    TRef.binary (TRef.of (T := ⟨S640000x2, .f32⟩) main_v23) (TRef.of (T := ⟨S_, .f32⟩) main_call0_cst) (TRef.of (T := ⟨S640000, .f32⟩) main_call0_v0) (fun x v => Host.reduce FloatOps.maximumf x v reducesTo_S640000x2_S640000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S640000, .f32⟩) main_call0_v1) (broadcastInDim S640000 ![] bcast_S_S640000),
    TRef.binary (TRef.of (T := ⟨S640000, .f32⟩) main_call0_v1) (TRef.of (T := ⟨S640000, .f32⟩) main_call0_v0) (TRef.of (T := ⟨S640000, .f32⟩) main_call0_v2) maximumf,
    TRef.unary (TRef.of (T := ⟨S640000, .f32⟩) main_call0_v2) (TRef.of (T := ⟨S640000x1, .f32⟩) main_call0_v3) (broadcastInDim S640000x1 ![0] bcast_S640000_S640000x1_0),
    TRef.unary (TRef.of (T := ⟨S640000x1, .f32⟩) main_call0_v3) (TRef.of (T := ⟨S640000x2, .f32⟩) main_call0_v4) (broadcastInDim S640000x2 ![0, 1] bcast_S640000x1_S640000x2_0_1),
    TRef.binary (TRef.of (T := ⟨S640000x2, .f32⟩) main_v23) (TRef.of (T := ⟨S640000x2, .f32⟩) main_call0_v4) (TRef.of (T := ⟨S640000x2, .f32⟩) main_call0_v5) subf,
    TRef.unary (TRef.of (T := ⟨S640000x2, .f32⟩) main_call0_v5) (TRef.of (T := ⟨S640000x2, .f32⟩) main_call0_v6) Host.exp,
    TRef.nullary (TRef.of (T := ⟨S_, .f32⟩) main_call0_cst_1) (constant S_ .f32 0x00000000#32),
    TRef.binary (TRef.of (T := ⟨S640000x2, .f32⟩) main_call0_v6) (TRef.of (T := ⟨S_, .f32⟩) main_call0_cst_1) (TRef.of (T := ⟨S640000, .f32⟩) main_call0_v7) (fun x v => Host.reduceAdd x v reducesTo_S640000x2_S640000_d1 h_S_),
    TRef.unary (TRef.of (T := ⟨S640000, .f32⟩) main_call0_v7) (TRef.of (T := ⟨S640000x1, .f32⟩) main_call0_v8) (broadcastInDim S640000x1 ![0] bcast_S640000_S640000x1_0),
    TRef.unary (TRef.of (T := ⟨S640000x1, .f32⟩) main_call0_v8) (TRef.of (T := ⟨S640000x1, .f32⟩) main_call0_v9) Host.log,
    TRef.unary (TRef.of (T := ⟨S640000x1, .f32⟩) main_call0_v9) (TRef.of (T := ⟨S640000x2, .f32⟩) main_call0_v10) (broadcastInDim S640000x2 ![0, 1] bcast_S640000x1_S640000x2_0_1),
    TRef.binary (TRef.of (T := ⟨S640000x2, .f32⟩) main_call0_v5) (TRef.of (T := ⟨S640000x2, .f32⟩) main_call0_v10) (TRef.of (T := ⟨S640000x2, .f32⟩) main_v24) subf ]

/-- The log-softmax's operations, each at its buffers. -/
abbrev opsB : List (HloOp τ sig (Elt F)) :=
  [ nullary main_call0_cst ((constant S_ .f32 0xFF800000#32) : (⟨S_, .f32⟩ : BufTy).Contents (Elt F)),
    binary main_v23 main_call0_cst main_call0_v0 ((fun x v => Host.reduce FloatOps.maximumf x v reducesTo_S640000x2_S640000_d1 h_S_) : (⟨S640000x2, .f32⟩ : BufTy).Contents (Elt F) → (⟨S_, .f32⟩ : BufTy).Contents (Elt F) → (⟨S640000, .f32⟩ : BufTy).Contents (Elt F)),
    nullary main_call0_cst_0 ((constant S_ .f32 0xFF800000#32) : (⟨S_, .f32⟩ : BufTy).Contents (Elt F)),
    unary main_call0_cst_0 main_call0_v1 ((broadcastInDim S640000 ![] bcast_S_S640000) : (⟨S_, .f32⟩ : BufTy).Contents (Elt F) → (⟨S640000, .f32⟩ : BufTy).Contents (Elt F)),
    binary main_call0_v1 main_call0_v0 main_call0_v2 ((maximumf) : (⟨S640000, .f32⟩ : BufTy).Contents (Elt F) → (⟨S640000, .f32⟩ : BufTy).Contents (Elt F) → (⟨S640000, .f32⟩ : BufTy).Contents (Elt F)),
    unary main_call0_v2 main_call0_v3 ((broadcastInDim S640000x1 ![0] bcast_S640000_S640000x1_0) : (⟨S640000, .f32⟩ : BufTy).Contents (Elt F) → (⟨S640000x1, .f32⟩ : BufTy).Contents (Elt F)),
    unary main_call0_v3 main_call0_v4 ((broadcastInDim S640000x2 ![0, 1] bcast_S640000x1_S640000x2_0_1) : (⟨S640000x1, .f32⟩ : BufTy).Contents (Elt F) → (⟨S640000x2, .f32⟩ : BufTy).Contents (Elt F)),
    binary main_v23 main_call0_v4 main_call0_v5 ((subf) : (⟨S640000x2, .f32⟩ : BufTy).Contents (Elt F) → (⟨S640000x2, .f32⟩ : BufTy).Contents (Elt F) → (⟨S640000x2, .f32⟩ : BufTy).Contents (Elt F)),
    unary main_call0_v5 main_call0_v6 ((Host.exp) : (⟨S640000x2, .f32⟩ : BufTy).Contents (Elt F) → (⟨S640000x2, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S640000x2_S640000_d1 h_S_) : (⟨S640000x2, .f32⟩ : BufTy).Contents (Elt F) → (⟨S_, .f32⟩ : BufTy).Contents (Elt F) → (⟨S640000, .f32⟩ : BufTy).Contents (Elt F)),
    unary main_call0_v7 main_call0_v8 ((broadcastInDim S640000x1 ![0] bcast_S640000_S640000x1_0) : (⟨S640000, .f32⟩ : BufTy).Contents (Elt F) → (⟨S640000x1, .f32⟩ : BufTy).Contents (Elt F)),
    unary main_call0_v8 main_call0_v9 ((Host.log) : (⟨S640000x1, .f32⟩ : BufTy).Contents (Elt F) → (⟨S640000x1, .f32⟩ : BufTy).Contents (Elt F)),
    unary main_call0_v9 main_call0_v10 ((broadcastInDim S640000x2 ![0, 1] bcast_S640000x1_S640000x2_0_1) : (⟨S640000x1, .f32⟩ : BufTy).Contents (Elt F) → (⟨S640000x2, .f32⟩ : BufTy).Contents (Elt F)),
    binary main_call0_v5 main_call0_v10 main_v24 ((subf) : (⟨S640000x2, .f32⟩ : BufTy).Contents (Elt F) → (⟨S640000x2, .f32⟩ : BufTy).Contents (Elt F) → (⟨S640000x2, .f32⟩ : BufTy).Contents (Elt F)) ]

end Cut

/-! Each of the log-softmax's operations over typed references is the operation at their buffers. -/

theorem opT0 {F : FTy → Type} [FloatOps F] : (TRef.nullary (TRef.of (T := ⟨S_, .f32⟩) main_call0_cst) (constant S_ .f32 0xFF800000#32) : HloOp τ sig (Elt F)) = nullary main_call0_cst ((constant S_ .f32 0xFF800000#32) : (⟨S_, .f32⟩ : BufTy).Contents (Elt F)) := rfl

theorem opT1_gen {F : FTy → Type} [FloatOps F]
    (f : (⟨S640000x2, .f32⟩ : BufTy).Contents (Elt F) → (⟨S_, .f32⟩ : BufTy).Contents (Elt F) → (⟨S640000, .f32⟩ : BufTy).Contents (Elt F)) :
    (TRef.binary (TRef.of (T := ⟨S640000x2, .f32⟩) main_v23) (TRef.of (T := ⟨S_, .f32⟩) main_call0_cst) (TRef.of (T := ⟨S640000, .f32⟩) main_call0_v0) f : HloOp τ sig (Elt F))
      = binary main_v23 main_call0_cst main_call0_v0 f := rfl
theorem opT1 {F : FTy → Type} [FloatOps F] : (TRef.binary (TRef.of (T := ⟨S640000x2, .f32⟩) main_v23) (TRef.of (T := ⟨S_, .f32⟩) main_call0_cst) (TRef.of (T := ⟨S640000, .f32⟩) main_call0_v0) (fun x v => Host.reduce FloatOps.maximumf x v reducesTo_S640000x2_S640000_d1 h_S_) : HloOp τ sig (Elt F)) = binary main_v23 main_call0_cst main_call0_v0 ((fun x v => Host.reduce FloatOps.maximumf x v reducesTo_S640000x2_S640000_d1 h_S_) : (⟨S640000x2, .f32⟩ : BufTy).Contents (Elt F) → (⟨S_, .f32⟩ : BufTy).Contents (Elt F) → (⟨S640000, .f32⟩ : BufTy).Contents (Elt F)) := opT1_gen _

theorem opT2 {F : FTy → Type} [FloatOps F] : (TRef.nullary (TRef.of (T := ⟨S_, .f32⟩) main_call0_cst_0) (constant S_ .f32 0xFF800000#32) : HloOp τ sig (Elt F)) = nullary main_call0_cst_0 ((constant S_ .f32 0xFF800000#32) : (⟨S_, .f32⟩ : BufTy).Contents (Elt F)) := rfl

theorem opT3 {F : FTy → Type} [FloatOps F] : (TRef.unary (TRef.of (T := ⟨S_, .f32⟩) main_call0_cst_0) (TRef.of (T := ⟨S640000, .f32⟩) main_call0_v1) (broadcastInDim S640000 ![] bcast_S_S640000) : HloOp τ sig (Elt F)) = unary main_call0_cst_0 main_call0_v1 ((broadcastInDim S640000 ![] bcast_S_S640000) : (⟨S_, .f32⟩ : BufTy).Contents (Elt F) → (⟨S640000, .f32⟩ : BufTy).Contents (Elt F)) := rfl

theorem opT4 {F : FTy → Type} [FloatOps F] : (TRef.binary (TRef.of (T := ⟨S640000, .f32⟩) main_call0_v1) (TRef.of (T := ⟨S640000, .f32⟩) main_call0_v0) (TRef.of (T := ⟨S640000, .f32⟩) main_call0_v2) maximumf : HloOp τ sig (Elt F)) = binary main_call0_v1 main_call0_v0 main_call0_v2 ((maximumf) : (⟨S640000, .f32⟩ : BufTy).Contents (Elt F) → (⟨S640000, .f32⟩ : BufTy).Contents (Elt F) → (⟨S640000, .f32⟩ : BufTy).Contents (Elt F)) := rfl

theorem opT5 {F : FTy → Type} [FloatOps F] : (TRef.unary (TRef.of (T := ⟨S640000, .f32⟩) main_call0_v2) (TRef.of (T := ⟨S640000x1, .f32⟩) main_call0_v3) (broadcastInDim S640000x1 ![0] bcast_S640000_S640000x1_0) : HloOp τ sig (Elt F)) = unary main_call0_v2 main_call0_v3 ((broadcastInDim S640000x1 ![0] bcast_S640000_S640000x1_0) : (⟨S640000, .f32⟩ : BufTy).Contents (Elt F) → (⟨S640000x1, .f32⟩ : BufTy).Contents (Elt F)) := rfl

theorem opT6 {F : FTy → Type} [FloatOps F] : (TRef.unary (TRef.of (T := ⟨S640000x1, .f32⟩) main_call0_v3) (TRef.of (T := ⟨S640000x2, .f32⟩) main_call0_v4) (broadcastInDim S640000x2 ![0, 1] bcast_S640000x1_S640000x2_0_1) : HloOp τ sig (Elt F)) = unary main_call0_v3 main_call0_v4 ((broadcastInDim S640000x2 ![0, 1] bcast_S640000x1_S640000x2_0_1) : (⟨S640000x1, .f32⟩ : BufTy).Contents (Elt F) → (⟨S640000x2, .f32⟩ : BufTy).Contents (Elt F)) := rfl

theorem opT7 {F : FTy → Type} [FloatOps F] : (TRef.binary (TRef.of (T := ⟨S640000x2, .f32⟩) main_v23) (TRef.of (T := ⟨S640000x2, .f32⟩) main_call0_v4) (TRef.of (T := ⟨S640000x2, .f32⟩) main_call0_v5) subf : HloOp τ sig (Elt F)) = binary main_v23 main_call0_v4 main_call0_v5 ((subf) : (⟨S640000x2, .f32⟩ : BufTy).Contents (Elt F) → (⟨S640000x2, .f32⟩ : BufTy).Contents (Elt F) → (⟨S640000x2, .f32⟩ : BufTy).Contents (Elt F)) := rfl

theorem opT8 {F : FTy → Type} [FloatOps F] : (TRef.unary (TRef.of (T := ⟨S640000x2, .f32⟩) main_call0_v5) (TRef.of (T := ⟨S640000x2, .f32⟩) main_call0_v6) Host.exp : HloOp τ sig (Elt F)) = unary main_call0_v5 main_call0_v6 ((Host.exp) : (⟨S640000x2, .f32⟩ : BufTy).Contents (Elt F) → (⟨S640000x2, .f32⟩ : BufTy).Contents (Elt F)) := rfl

theorem opT9 {F : FTy → Type} [FloatOps F] : (TRef.nullary (TRef.of (T := ⟨S_, .f32⟩) main_call0_cst_1) (constant S_ .f32 0x00000000#32) : HloOp τ sig (Elt F)) = nullary main_call0_cst_1 ((constant S_ .f32 0x00000000#32) : (⟨S_, .f32⟩ : BufTy).Contents (Elt F)) := rfl

theorem opT10 {F : FTy → Type} [FloatOps F] : (TRef.binary (TRef.of (T := ⟨S640000x2, .f32⟩) main_call0_v6) (TRef.of (T := ⟨S_, .f32⟩) main_call0_cst_1) (TRef.of (T := ⟨S640000, .f32⟩) main_call0_v7) (fun x v => Host.reduceAdd x v reducesTo_S640000x2_S640000_d1 h_S_) : HloOp τ sig (Elt F)) = binary main_call0_v6 main_call0_cst_1 main_call0_v7 ((fun x v => Host.reduceAdd x v reducesTo_S640000x2_S640000_d1 h_S_) : (⟨S640000x2, .f32⟩ : BufTy).Contents (Elt F) → (⟨S_, .f32⟩ : BufTy).Contents (Elt F) → (⟨S640000, .f32⟩ : BufTy).Contents (Elt F)) := rfl

theorem opT11 {F : FTy → Type} [FloatOps F] : (TRef.unary (TRef.of (T := ⟨S640000, .f32⟩) main_call0_v7) (TRef.of (T := ⟨S640000x1, .f32⟩) main_call0_v8) (broadcastInDim S640000x1 ![0] bcast_S640000_S640000x1_0) : HloOp τ sig (Elt F)) = unary main_call0_v7 main_call0_v8 ((broadcastInDim S640000x1 ![0] bcast_S640000_S640000x1_0) : (⟨S640000, .f32⟩ : BufTy).Contents (Elt F) → (⟨S640000x1, .f32⟩ : BufTy).Contents (Elt F)) := rfl

theorem opT12 {F : FTy → Type} [FloatOps F] : (TRef.unary (TRef.of (T := ⟨S640000x1, .f32⟩) main_call0_v8) (TRef.of (T := ⟨S640000x1, .f32⟩) main_call0_v9) Host.log : HloOp τ sig (Elt F)) = unary main_call0_v8 main_call0_v9 ((Host.log) : (⟨S640000x1, .f32⟩ : BufTy).Contents (Elt F) → (⟨S640000x1, .f32⟩ : BufTy).Contents (Elt F)) := rfl

theorem opT13 {F : FTy → Type} [FloatOps F] : (TRef.unary (TRef.of (T := ⟨S640000x1, .f32⟩) main_call0_v9) (TRef.of (T := ⟨S640000x2, .f32⟩) main_call0_v10) (broadcastInDim S640000x2 ![0, 1] bcast_S640000x1_S640000x2_0_1) : HloOp τ sig (Elt F)) = unary main_call0_v9 main_call0_v10 ((broadcastInDim S640000x2 ![0, 1] bcast_S640000x1_S640000x2_0_1) : (⟨S640000x1, .f32⟩ : BufTy).Contents (Elt F) → (⟨S640000x2, .f32⟩ : BufTy).Contents (Elt F)) := rfl

theorem opT14 {F : FTy → Type} [FloatOps F] : (TRef.binary (TRef.of (T := ⟨S640000x2, .f32⟩) main_call0_v5) (TRef.of (T := ⟨S640000x2, .f32⟩) main_call0_v10) (TRef.of (T := ⟨S640000x2, .f32⟩) main_v24) subf : HloOp τ sig (Elt F)) = binary main_call0_v5 main_call0_v10 main_v24 ((subf) : (⟨S640000x2, .f32⟩ : BufTy).Contents (Elt F) → (⟨S640000x2, .f32⟩ : BufTy).Contents (Elt F) → (⟨S640000x2, .f32⟩ : BufTy).Contents (Elt F)) := rfl

theorem opsT_eq {F : FTy → Type} [FloatOps F] : (opsT (F := F)) = opsB :=
  (congrArg₂ List.cons opT0 (congrArg₂ List.cons opT1 (congrArg₂ List.cons opT2 (congrArg₂ List.cons opT3 (congrArg₂ List.cons opT4 (congrArg₂ List.cons opT5 (congrArg₂ List.cons opT6 (congrArg₂ List.cons opT7 (congrArg₂ List.cons opT8 (congrArg₂ List.cons opT9 (congrArg₂ List.cons opT10 (congrArg₂ List.cons opT11 (congrArg₂ List.cons opT12 (congrArg₂ List.cons opT13 (congrArg₂ List.cons opT14 rfl)))))))))))))))

set_option maxRecDepth 8192 in
/-- The reference's 43 operations are the three stages in a row. -/
theorem ops_cut {F : FTy → Type} [FloatOps F] : (ops (F := F)) = opsG ++ (opsL ++ opsB) :=
  (rfl : (ops (F := F)) = opsG ++ (opsL ++ opsT)).trans (congrArg (fun l => opsG ++ (opsL ++ l)) opsT_eq)

end Stages

/-! ## The stages as functions of the arrays they read -/

/-- A column of the edge list made start indices: an entry below zero has 50000 added (the wrap of a negative index),
    then the vector becomes a one-column matrix. -/
def wrapIdx (x : (⟨S640000, .i32⟩ : BufTy).Contents (Elt Ideal)) : (⟨S640000x1, .i32⟩ : BufTy).Contents (Elt Ideal) :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 50000#32))) x)

/-- Column 0 of the edge list as a vector. -/
def col0 (E : (⟨S640000x2, .i32⟩ : BufTy).Contents (Elt Ideal)) : (⟨S640000, .i32⟩ : BufTy).Contents (Elt Ideal) :=
  shapeCast _ (extractStridedSlice S640000x1 ![0, 0] E slices_S640000x2_S640000x1_0_0) shapeCasts_S640000x1_S640000

/-- Column 1 of the edge list as a vector. -/
def col1 (E : (⟨S640000x2, .i32⟩ : BufTy).Contents (Elt Ideal)) : (⟨S640000, .i32⟩ : BufTy).Contents (Elt Ideal) :=
  shapeCast _ (extractStridedSlice S640000x1 ![0, 1] E slices_S640000x2_S640000x1_0_1) shapeCasts_S640000x1_S640000

/-- The rows of the node table that a one-column matrix of start indices names. -/
def gat (h : (⟨S50000x128, .f32⟩ : BufTy).Contents (Elt Ideal)) (si : (⟨S640000x1, .i32⟩ : BufTy).Contents (Elt Ideal)) :
    (⟨S640000x128, .f32⟩ : BufTy).Contents (Elt Ideal) :=
  Host.gather gather_S50000x128_S640000x1_S640000x128_1_0_n_n_0_1_1128 h si

/-- Both logits of every edge from the two gathered arrays: the source rows beside the target rows, times the transposed
    weights, plus the biases. -/
def logitsOf (g0 g1 : (⟨S640000x128, .f32⟩ : BufTy).Contents (Elt Ideal)) (W : (⟨S2x256, .f32⟩ : BufTy).Contents (Elt Ideal))
    (b : (⟨S2, .f32⟩ : BufTy).Contents (Elt Ideal)) : (⟨S640000x2, .f32⟩ : BufTy).Contents (Elt Ideal) :=
  addf (F := Ideal) (φ := .f32) (Host.dotGeneral (F := Ideal) (φ₁ := .f32) (φ₂ := .f32) dot_S640000x256_S256x2_S640000x2_1_0_0_1_n_n none
      (concatenate S640000x256 1 [⟨S640000x128, g0⟩, ⟨S640000x128, g1⟩] concatenates_S640000x128_S640000x128_S640000x256_d1)
      (transpose S256x2 [1, 0] W transposes_S2x256_S256x2_1_0))
    (broadcastInDim S640000x2 ![0, 1] bcast_S1x2_S640000x2_0_1 (broadcastInDim S1x2 ![1] bcast_S2_S1x2_1 b))

/-- Each row's maximum: the fold of the larger from minus infinity along the row, then the larger of that and minus infinity. -/
def rowMaxArr (l : (⟨S640000x2, .f32⟩ : BufTy).Contents (Elt Ideal)) : (⟨S640000, .f32⟩ : BufTy).Contents (Elt Ideal) :=
  maximumf (F := Ideal) (φ := .f32) (broadcastInDim S640000 ![] bcast_S_S640000 (constant (F := Ideal) S_ .f32 0xFF800000#32))
    (Host.reduce FloatOps.maximumf l (constant (F := Ideal) S_ .f32 0xFF800000#32) reducesTo_S640000x2_S640000_d1 h_S_)

/-- Every entry less its row's maximum. -/
def shiftArr (l : (⟨S640000x2, .f32⟩ : BufTy).Contents (Elt Ideal)) : (⟨S640000x2, .f32⟩ : BufTy).Contents (Elt Ideal) :=
  subf (F := Ideal) (φ := .f32) l (broadcastInDim S640000x2 ![0, 1] bcast_S640000x1_S640000x2_0_1
    (broadcastInDim S640000x1 ![0] bcast_S640000_S640000x1_0 (rowMaxArr l)))

/-- The log-softmax of every row: the shifted entry less the logarithm of the sum, from zero, of the row's shifted
    entries' exponentials. -/
def lsmTerm (l : (⟨S640000x2, .f32⟩ : BufTy).Contents (Elt Ideal)) : (⟨S640000x2, .f32⟩ : BufTy).Contents (Elt Ideal) :=
  subf (F := Ideal) (φ := .f32) (shiftArr l) (broadcastInDim S640000x2 ![0, 1] bcast_S640000x1_S640000x2_0_1
    (Host.log (F := Ideal) (φ := .f32) (broadcastInDim S640000x1 ![0] bcast_S640000_S640000x1_0
      (Host.reduceAdd (F := Ideal) (φ := .f32) (Host.exp (F := Ideal) (φ := .f32) (shiftArr l)) (constant (F := Ideal) S_ .f32 0x00000000#32) reducesTo_S640000x2_S640000_d1 h_S_))))

section StageValues
open Idealize.ShloMosaic.StableHlo

/-! ## What each stage leaves -/

/-- After the log-softmax's operations the result buffer is the log-softmax of what the logits' buffer held. -/
theorem stageB (Y : Valuation τ sig (Elt Ideal)) :
    after (opsB (F := Ideal)) Y (Proc.devRef .tc main_v24) = lsmTerm (Y (Proc.devRef .tc main_v23)) := by
  after_results_simp
  rfl

/-- After the six operations from the gathered arrays the logits' buffer is the logits of what the four buffers held. -/
theorem stageL (Y : Valuation τ sig (Elt Ideal)) :
    after (opsL (F := Ideal)) Y (Proc.devRef .tc main_v23)
      = logitsOf (Y (Proc.devRef .tc main_v8)) (Y (Proc.devRef .tc main_v17)) (Y (Proc.devRef .tc main_arg1))
          (Y (Proc.devRef .tc main_arg2)) := by
  after_results_simp
  rfl

/-- After the first 22 operations the first gathered array is the node table at column 0's start indices … -/
theorem stageG0 (Y : Valuation τ sig (Elt Ideal)) :
    after (opsG (F := Ideal)) Y (Proc.devRef .tc main_v8)
      = gat (Y (Proc.devRef .tc main_arg0)) (wrapIdx (col0 (Y (Proc.devRef .tc main_arg3)))) := by
  after_results_simp
  rfl

/-- … the second at column 1's … -/
theorem stageG1 (Y : Valuation τ sig (Elt Ideal)) :
    after (opsG (F := Ideal)) Y (Proc.devRef .tc main_v17)
      = gat (Y (Proc.devRef .tc main_arg0)) (wrapIdx (col1 (Y (Proc.devRef .tc main_arg3)))) := by
  after_results_simp
  rfl

/-- … and the weights and the biases are as they were. -/
theorem stageG_arg1 (Y : Valuation τ sig (Elt Ideal)) :
    after (opsG (F := Ideal)) Y (Proc.devRef .tc main_arg1) = Y (Proc.devRef .tc main_arg1) := by
  after_results_simp
theorem stageG_arg2 (Y : Valuation τ sig (Elt Ideal)) :
    after (opsG (F := Ideal)) Y (Proc.devRef .tc main_arg2) = Y (Proc.devRef .tc main_arg2) := by
  after_results_simp

/-- So the result buffer after all 43 operations is the log-softmax of the logits of the two gathered arrays. -/
theorem run_value (Y : Valuation τ sig (Elt Ideal)) :
    after (ops (F := Ideal)) Y (Proc.devRef .tc main_v24)
      = lsmTerm (logitsOf (gat (Y (Proc.devRef .tc main_arg0)) (wrapIdx (col0 (Y (Proc.devRef .tc main_arg3)))))
          (gat (Y (Proc.devRef .tc main_arg0)) (wrapIdx (col1 (Y (Proc.devRef .tc main_arg3)))))
          (Y (Proc.devRef .tc main_arg1)) (Y (Proc.devRef .tc main_arg2))) := by
  rw [ops_cut, StableHlo.after_append, StableHlo.after_append, stageB, stageL, stageG0, stageG1, stageG_arg1, stageG_arg2]

end StageValues

/-! ## The edge list's columns and the wrap, read at an entry -/

theorem col0_apply (E : (⟨S640000x2, .i32⟩ : BufTy).Contents (Elt Ideal)) (e : Fin 640000) :
    col0 E (ix1 e) = E (ix2 e (0 : Fin 2)) := by
  unfold col0
  refine (shapeCast_apply _ shapeCasts_S640000x1_S640000 (ix1 e) (ix2 e (0 : Fin 1)) ?_).trans ?_
  · rw [Shape.rowMajor_val_two, Shape.rowMajor_val_one]; show e.val * 1 + 0 = e.val; omega
  · exact extractStridedSlice_apply ![0, 0] E slices_S640000x2_S640000x1_0_0 (ix2 e (0 : Fin 1)) (ix2 e (0 : Fin 2)) (fun a => match a with
      | ⟨0, _⟩ => by show e.val = 0 + e.val; omega
      | ⟨1, _⟩ => by show 0 = 0 + 0; rfl)

theorem col1_apply (E : (⟨S640000x2, .i32⟩ : BufTy).Contents (Elt Ideal)) (e : Fin 640000) :
    col1 E (ix1 e) = E (ix2 e (1 : Fin 2)) := by
  unfold col1
  refine (shapeCast_apply _ shapeCasts_S640000x1_S640000 (ix1 e) (ix2 e (0 : Fin 1)) ?_).trans ?_
  · rw [Shape.rowMajor_val_two, Shape.rowMajor_val_one]; show e.val * 1 + 0 = e.val; omega
  · exact extractStridedSlice_apply ![0, 1] E slices_S640000x2_S640000x1_0_1 (ix2 e (0 : Fin 1)) (ix2 e (1 : Fin 2)) (fun a => match a with
      | ⟨0, _⟩ => by show e.val = 0 + e.val; omega
      | ⟨1, _⟩ => by show 1 = 1 + 0; rfl)

/-- A word that is not negative as a signed integer is not below zero in the signed order. -/
theorem cmpi_slt_zero {x : BitVec 32} (hx : 0 ≤ x.toInt) : IntOp.cmpi .slt x 0#32 = 0#1 := by
  have h : x.slt 0#32 = false := by
    rw [BitVec.slt_eq_decide]
    simp only [BitVec.toInt_zero, decide_eq_false_iff_not, not_lt]
    exact hx
  show BitVec.ofBool (x.slt 0#32) = 0#1
  rw [h]; rfl

/-- Where the column's entry is not negative the wrap leaves it. -/
theorem wrapIdx_apply (x : (⟨S640000, .i32⟩ : BufTy).Contents (Elt Ideal)) (e : Fin 640000) (hx : 0 ≤ (x (ix1 e)).toInt) :
    wrapIdx x (ix2 e (0 : Fin 1)) = x (ix1 e) := by
  unfold wrapIdx
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  rw [select_apply]
  have hz : broadcastInDim S640000 ![] bcast_S_S640000 (constantI S_ 32 0#32) (ix1 e) = 0#32 :=
    broadcastInDim_apply _ bcast_S_S640000 (constantI S_ 32 0#32) (ix1 e) ix0 (fun a => a.elim0)
  have hc : cmpi .slt x (broadcastInDim S640000 ![] bcast_S_S640000 (constantI S_ 32 0#32)) (ix1 e) = 0#1 := by
    show IntOp.cmpi .slt (x (ix1 e)) (broadcastInDim S640000 ![] bcast_S_S640000 (constantI S_ 32 0#32) (ix1 e)) = 0#1
    rw [hz]; exact cmpi_slt_zero hx
  rw [hc, select_zero]

/-! ## The gather read at an entry -/

/-- The gather at `(e, k)`: the table's row at the start index `si (e, 0)`, read as a signed integer and clamped into
    `0 … 49999`, at column `k`. -/
theorem gat_apply (h : (⟨S50000x128, .f32⟩ : BufTy).Contents (Elt Ideal)) (si : (⟨S640000x1, .i32⟩ : BufTy).Contents (Elt Ideal))
    (e : Fin 640000) (k : Fin 128) :
    gat h si (ix2 e k) = h (ix2 (rowOf (si (ix2 e (0 : Fin 1)))) k) := by
  unfold gat Host.gather
  refine congrArg h (funext fun a => Fin.ext ?_)
  match a with
  | ⟨0, _⟩ =>
    show gather_S50000x128_S640000x1_S640000x128_1_0_n_n_0_1_1128.start (ix2 e k) si 0
      + gather_S50000x128_S640000x1_S640000x128_1_0_n_n_0_1_1128.batchCoord (ix2 e k) 0
      + gather_S50000x128_S640000x1_S640000x128_1_0_n_n_0_1_1128.offCoord (ix2 e k) 0 = _
    rw [GatherDims.batchCoord_eq_zero gather_S50000x128_S640000x1_S640000x128_1_0_n_n_0_1_1128 _ _ List.not_mem_nil,
      GatherDims.offCoord_eq_zero gather_S50000x128_S640000x1_S640000x128_1_0_n_n_0_1_1128 _ _
        (fun hh => ((GatherDims.mem_sKept _ _).mp hh).1 (List.mem_singleton.mpr rfl))]
    simp only [Nat.add_zero]
    unfold GatherDims.start
    rw [dif_pos (show (0 : Fin 2) ∈ gather_S50000x128_S640000x1_S640000x128_1_0_n_n_0_1_1128.startIndexMap from List.mem_singleton.mpr rfl)]
    have hsi : gather_S50000x128_S640000x1_S640000x128_1_0_n_n_0_1_1128.siIdx (ix2 e k)
        ⟨List.idxOf (0 : Fin 2) gather_S50000x128_S640000x1_S640000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x128_S640000x1_S640000x128_1_0_n_n_0_1_1128.start (ix2 e k) si 1
      + gather_S50000x128_S640000x1_S640000x128_1_0_n_n_0_1_1128.batchCoord (ix2 e k) 1
      + gather_S50000x128_S640000x1_S640000x128_1_0_n_n_0_1_1128.offCoord (ix2 e k) 1 = k.val
    rw [GatherDims.batchCoord_eq_zero gather_S50000x128_S640000x1_S640000x128_1_0_n_n_0_1_1128 _ _ List.not_mem_nil]
    have hs : gather_S50000x128_S640000x1_S640000x128_1_0_n_n_0_1_1128.start (ix2 e k) si 1 = 0 := by
      unfold GatherDims.start
      rw [dif_neg (by decide)]
    have ho : gather_S50000x128_S640000x1_S640000x128_1_0_n_n_0_1_1128.offCoord (ix2 e k) 1 = k.val := by
      unfold GatherDims.offCoord
      rw [dif_pos (by decide)]
      rfl
    rw [hs, ho]; omega

/-! ## The features, the weights and the biases read at an entry -/

/-- The joined array at a column below 128 is the first gathered array there … -/
theorem cat_apply_left (g0 g1 : (⟨S640000x128, .f32⟩ : BufTy).Contents (Elt Ideal)) (e : Fin 640000) (k : Fin 256) (hk : k.val < 128) :
    concatenate S640000x256 1 [⟨S640000x128, g0⟩, ⟨S640000x128, g1⟩] concatenates_S640000x128_S640000x128_S640000x256_d1 (ix2 e k)
      = g0 (ix2 e (⟨k.val, hk⟩ : Fin 128)) :=
  concatenate_pair_apply_left 1 g0 g1 concatenates_S640000x128_S640000x128_S640000x256_d1 (ix2 e k) rfl
    (ix2 e (⟨k.val, hk⟩ : Fin 128)) (fun b => match b with
      | ⟨0, _⟩ => rfl
      | ⟨1, _⟩ => rfl)

/-- … and from column 128 on the second, 128 columns back. -/
theorem cat_apply_right (g0 g1 : (⟨S640000x128, .f32⟩ : BufTy).Contents (Elt Ideal)) (e : Fin 640000) (k : Fin 256) (hk : ¬k.val < 128) :
    concatenate S640000x256 1 [⟨S640000x128, g0⟩, ⟨S640000x128, g1⟩] concatenates_S640000x128_S640000x128_S640000x256_d1 (ix2 e k)
      = g1 (ix2 e (⟨k.val - 128, by omega⟩ : Fin 128)) :=
  concatenate_pair_apply_right 1 g0 g1 concatenates_S640000x128_S640000x128_S640000x256_d1 (ix2 e k) rfl rfl
    (ix2 e (⟨k.val - 128, by omega⟩ : Fin 128)) (fun b hb => match b, hb with
      | ⟨0, _⟩, _ => rfl
      | ⟨1, _⟩, hb => absurd rfl hb)
    (by show (k.val - 128) + 128 = k.val; omega)

/-- The transposed weights at `(k, c)` are the weights at `(c, k)`. -/
theorem wT_apply (W : (⟨S2x256, .f32⟩ : BufTy).Contents (Elt Ideal)) (k : Fin 256) (c : Fin 2) :
    transpose S256x2 [1, 0] W transposes_S2x256_S256x2_1_0 (ix2 k c) = W (ix2 c k) :=
  transpose_apply [1, 0] W transposes_S2x256_S256x2_1_0 (ix2 k c) (ix2 c k) (fun b => match b with
    | ⟨0, _⟩ => rfl
    | ⟨1, _⟩ => rfl)

/-- The biases spread over the edges: at `(e, c)`, bias `c`. -/
theorem bias_apply (b : (⟨S2, .f32⟩ : BufTy).Contents (Elt Ideal)) (e : Fin 640000) (c : Fin 2) :
    broadcastInDim S640000x2 ![0, 1] bcast_S1x2_S640000x2_0_1 (broadcastInDim S1x2 ![1] bcast_S2_S1x2_1 b) (ix2 e c) = b (ix1 c) :=
  (broadcastInDim_apply _ bcast_S1x2_S640000x2_0_1 _ (ix2 e c) (ix2 (0 : Fin 1) c) (fun a => match a with
    | ⟨0, _⟩ => by show 0 = if (1 : Nat) = 1 then 0 else e.val; rw [if_pos rfl]
    | ⟨1, _⟩ => by show c.val = if (2 : Nat) = 1 then 0 else c.val; rw [if_neg (by decide)])).trans
  (broadcastInDim_apply _ bcast_S2_S1x2_1 b (ix2 (0 : Fin 1) c) (ix1 c) (fun a => match a with
    | ⟨0, _⟩ => by show c.val = if (2 : Nat) = 1 then 0 else c.val; rw [if_neg (by decide)]))

/-! ## The contraction read at an entry: a sum over the 256 features -/

theorem lhs_main_v20_0 (i : S640000x2.Idx) (q : dot_S640000x256_S256x2_S640000x2_1_0_0_1_n_n.contr.Idx) :
    (dot_S640000x256_S256x2_S640000x2_1_0_0_1_n_n.lhsIdx i q 0).val = (i 0).val := by
  unfold DotDims.lhsIdx
  rw [dif_neg (show ¬(0 : Fin S640000x256.rank) ∈ dot_S640000x256_S256x2_S640000x2_1_0_0_1_n_n.lhsBatch by decide), dif_pos (show (0 : Fin S640000x256.rank) ∈ dot_S640000x256_S256x2_S640000x2_1_0_0_1_n_n.lhsNonContracting by decide)]
  rfl
theorem lhs_main_v20_1 (i : S640000x2.Idx) (q : dot_S640000x256_S256x2_S640000x2_1_0_0_1_n_n.contr.Idx) :
    (dot_S640000x256_S256x2_S640000x2_1_0_0_1_n_n.lhsIdx i q 1).val = (q ⟨0, by decide⟩).val :=
  dot_S640000x256_S256x2_S640000x2_1_0_0_1_n_n.lhsIdx_val_of_single rfl i q
theorem rhs_main_v20_0 (i : S640000x2.Idx) (q : dot_S640000x256_S256x2_S640000x2_1_0_0_1_n_n.contr.Idx) :
    (dot_S640000x256_S256x2_S640000x2_1_0_0_1_n_n.rhsIdx i q 0).val = (q ⟨0, by decide⟩).val :=
  dot_S640000x256_S256x2_S640000x2_1_0_0_1_n_n.rhsIdx_val_of_single rfl i q
theorem rhs_main_v20_1 (i : S640000x2.Idx) (q : dot_S640000x256_S256x2_S640000x2_1_0_0_1_n_n.contr.Idx) :
    (dot_S640000x256_S256x2_S640000x2_1_0_0_1_n_n.rhsIdx i q 1).val = (i 1).val := by
  unfold DotDims.rhsIdx
  rw [dif_neg (show ¬(1 : Fin S256x2.rank) ∈ dot_S640000x256_S256x2_S640000x2_1_0_0_1_n_n.rhsBatch by decide), dif_pos (show (1 : Fin S256x2.rank) ∈ dot_S640000x256_S256x2_S640000x2_1_0_0_1_n_n.rhsNonContracting by decide)]
  rfl
abbrev lidx_main_v20 (i : S640000x2.Idx) (k : Fin 256) : S640000x256.Idx := fun a => match a with
  | ⟨0, _⟩ => ⟨(i 0).val, (i 0).isLt⟩
  | ⟨1, _⟩ => ⟨k.val, k.isLt⟩
abbrev ridx_main_v20 (i : S640000x2.Idx) (k : Fin 256) : S256x2.Idx := fun a => match a with
  | ⟨0, _⟩ => ⟨k.val, k.isLt⟩
  | ⟨1, _⟩ => ⟨(i 1).val, (i 1).isLt⟩

/-- The product of a [640000,256] array and a [256,2] array at `i`: the sum over `k` of the left at `(i 0, k)` times the
    right at `(k, i 1)`. -/
theorem dot_apply (y0 : (⟨S640000x256, .f32⟩ : BufTy).Contents (Elt Ideal)) (y1 : (⟨S256x2, .f32⟩ : BufTy).Contents (Elt Ideal)) (i : S640000x2.Idx) :
    Host.dotGeneral (F := Ideal) (φ₁ := .f32) (φ₂ := .f32) dot_S640000x256_S256x2_S640000x2_1_0_0_1_n_n none y0 y1 i
      = ∑ k : Fin 256, y0 (lidx_main_v20 i k) * y1 (ridx_main_v20 i k) := by
  simp only [Host.dotGeneral]
  rw [Ideal.dotGeneral_apply, ← Equiv.sum_comp (ValueIdx.contrEquiv1 dot_S640000x256_S256x2_S640000x2_1_0_0_1_n_n 256 rfl rfl).symm]
  refine Finset.sum_congr rfl fun k _ => ?_
  have hk := ValueIdx.contrEquiv1_symm_val dot_S640000x256_S256x2_S640000x2_1_0_0_1_n_n 256 rfl rfl k
  have el : dot_S640000x256_S256x2_S640000x2_1_0_0_1_n_n.lhsIdx i ((ValueIdx.contrEquiv1 dot_S640000x256_S256x2_S640000x2_1_0_0_1_n_n 256 rfl rfl).symm k) = lidx_main_v20 i k := funext fun a => Fin.ext (by
    match a with
    | ⟨0, _⟩ => exact lhs_main_v20_0 _ _
    | ⟨1, _⟩ => exact (lhs_main_v20_1 _ _).trans hk)
  have er : dot_S640000x256_S256x2_S640000x2_1_0_0_1_n_n.rhsIdx i ((ValueIdx.contrEquiv1 dot_S640000x256_S256x2_S640000x2_1_0_0_1_n_n 256 rfl rfl).symm k) = ridx_main_v20 i k := funext fun a => Fin.ext (by
    match a with
    | ⟨0, _⟩ => exact (rhs_main_v20_0 _ _).trans hk
    | ⟨1, _⟩ => exact rhs_main_v20_1 _ _)
  rw [el, er]

/-- The two operand indices of the contraction at `(e, c)`, by coordinates. -/
theorem lidx_eq (e : Fin 640000) (c : Fin 2) (k : Fin 256) : lidx_main_v20 (ix2 e c) k = ix2 e k :=
  funext fun a => by
    match a with
    | ⟨0, _⟩ => rfl
    | ⟨1, _⟩ => rfl
theorem ridx_eq (e : Fin 640000) (c : Fin 2) (k : Fin 256) : ridx_main_v20 (ix2 e c) k = ix2 k c :=
  funext fun a => by
    match a with
    | ⟨0, _⟩ => rfl
    | ⟨1, _⟩ => rfl

/-! ## The logits read at an entry -/

/-- Where both columns of the edge list hold row numbers, the logits' array at `(e, c)` is class `c`'s logit of edge `e`. -/
theorem logits_apply (h : (⟨S50000x128, .f32⟩ : BufTy).Contents (Elt Ideal)) (W : (⟨S2x256, .f32⟩ : BufTy).Contents (Elt Ideal))
    (b : (⟨S2, .f32⟩ : BufTy).Contents (Elt Ideal)) (E : (⟨S640000x2, .i32⟩ : BufTy).Contents (Elt Ideal)) (hR : InRange E)
    (e : Fin 640000) (c : Fin 2) :
    logitsOf (gat h (wrapIdx (col0 E))) (gat h (wrapIdx (col1 E))) W b (ix2 e c) = logit h W b E e c := by
  unfold logitsOf logit
  rw [addf_apply, bias_apply, dot_apply]
  refine congrArg (· + b (ix1 c)) (Finset.sum_congr rfl fun k _ => ?_)
  rw [lidx_eq, ridx_eq, wT_apply]
  refine congrArg (· * W (ix2 c k)) ?_
  unfold feat node
  by_cases hk : k.val < 128
  · rw [dif_pos hk]
    refine (cat_apply_left _ _ e k hk).trans ?_
    rw [gat_apply, wrapIdx_apply _ e (by rw [col0_apply]; exact (hR _).1), col0_apply]
  · rw [dif_neg hk]
    refine (cat_apply_right _ _ e k hk).trans ?_
    rw [gat_apply, wrapIdx_apply _ e (by rw [col1_apply]; exact (hR _).1), col1_apply]

/-! ## The log-softmax read at an entry -/

/-- The second axis of a [640000,2] array reduces away to a [640000] vector. -/
theorem reduces_row : S640000x2.Reduces [1] S640000 := by decide

/-- Row `e`, entry `k`: the index over `e` with `k` on the reduced axis. -/
theorem lift_row (e : Fin 640000) (k : Fin 2) : reduces_row.lift (ix1 e) k = ix2 e k :=
  funext fun a => Fin.ext (by
    match a with
    | ⟨0, _⟩ => rfl
    | ⟨1, _⟩ => rfl)

/-- The word `0xFF800000` is minus infinity. -/
theorem negInf : Ideal.ofBits .f32 0xFF800000#32 = (⊥ : EReal) := by simp [Ideal.ofBits, Ideal.ieee]

/-- The exponential and the logarithm of an array, entry by entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- A row's maximum at `e` is `rowMax` of the row. -/
theorem rowMaxArr_apply (l : (⟨S640000x2, .f32⟩ : BufTy).Contents (Elt Ideal)) (e : Fin 640000) :
    rowMaxArr l (ix1 e) = rowMax (fun k => l (ix2 e k)) := by
  unfold rowMaxArr rowMax
  rw [maximumf_apply]
  have h1 : broadcastInDim S640000 ![] bcast_S_S640000 (constant (F := Ideal) S_ .f32 0xFF800000#32) (ix1 e) = (⊥ : EReal) :=
    (broadcastInDim_apply _ bcast_S_S640000 _ (ix1 e) ix0 (fun a => a.elim0)).trans negInf
  have h2 : Host.reduce (FloatOps.maximumf (F := Ideal) (φ := .f32)) l (constant (F := Ideal) S_ .f32 0xFF800000#32)
        reducesTo_S640000x2_S640000_d1 h_S_ (ix1 e)
      = Finset.univ.fold max (⊥ : EReal) (fun k : Fin 2 => l (ix2 e k)) := by
    refine (Host.reduce_eq_fold_single (FloatOps.maximumf (F := Ideal) (φ := .f32)) l _ reducesTo_S640000x2_S640000_d1 reduces_row h_S_
      (ix1 e)).trans ?_
    have hl : (l ∘ reduces_row.lift (ix1 e)) = fun k : Fin 2 => l (ix2 e k) := funext fun k => congrArg l (lift_row e k)
    rw [hl, constant_apply, negInf]
    rfl
  rw [h1, h2]

/-- A shifted entry: the entry less its row's maximum. -/
theorem shiftArr_apply (l : (⟨S640000x2, .f32⟩ : BufTy).Contents (Elt Ideal)) (e : Fin 640000) (c : Fin 2) :
    shiftArr l (ix2 e c) = l (ix2 e c) - rowMax (fun k => l (ix2 e k)) := by
  unfold shiftArr
  rw [subf_apply]
  refine congrArg (l (ix2 e c) - ·) ?_
  refine (broadcastInDim_apply _ bcast_S640000x1_S640000x2_0_1 _ (ix2 e c) (ix2 e (0 : Fin 1)) (fun a => match a with
    | ⟨0, _⟩ => by show e.val = if (640000 : Nat) = 1 then 0 else e.val; rw [if_neg (by decide)]
    | ⟨1, _⟩ => by show 0 = if (1 : Nat) = 1 then 0 else c.val; rw [if_pos rfl])).trans ?_
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  exact rowMaxArr_apply l e

/-- The log-softmax's array at `(e, c)` is the two-class log-softmax of row `e` at class `c`. -/
theorem lsmTerm_apply (l : (⟨S640000x2, .f32⟩ : BufTy).Contents (Elt Ideal)) (e : Fin 640000) (c : Fin 2) :
    lsmTerm l (ix2 e c) = logSoftmax2 (fun k => l (ix2 e k)) c := by
  unfold lsmTerm logSoftmax2
  rw [subf_apply, shiftArr_apply]
  refine congrArg ((l (ix2 e c) - rowMax (fun k => l (ix2 e k))) - ·) ?_
  refine (broadcastInDim_apply _ bcast_S640000x1_S640000x2_0_1 _ (ix2 e c) (ix2 e (0 : Fin 1)) (fun a => match a with
    | ⟨0, _⟩ => by show e.val = if (640000 : Nat) = 1 then 0 else e.val; rw [if_neg (by decide)]
    | ⟨1, _⟩ => by show 0 = if (1 : Nat) = 1 then 0 else c.val; rw [if_pos rfl])).trans ?_
  rw [hostLog_apply]
  refine congrArg Ideal.log ?_
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  simp only [Host.reduceAdd, Ideal.hostReduceAdd_def]
  rw [Ideal.hostReduceAdd_single reducesTo_S640000x2_S640000_d1 reduces_row, constant_apply, Ideal.ofBits_zero_f32]
  refine congrArg (0 + ·) (Finset.sum_congr rfl fun (k : Fin 2) _ => ?_)
  rw [hostExp_apply, lift_row, shiftArr_apply]

/-! ## The result -/

/-- The reference's result buffer after its 43 operations is `refOut` of the four argument buffers. -/
theorem ref_value (hR : InRange (X (Proc.devRef .tc main_arg3))) :
    after (ops (F := Ideal)) X (Proc.devRef .tc main_v24)
      = refOut (X (Proc.devRef .tc main_arg0)) (X (Proc.devRef .tc main_arg1)) (X (Proc.devRef .tc main_arg2)) (X (Proc.devRef .tc main_arg3)) := by
  refine (run_value X).trans (funext fun i => ?_)
  obtain ⟨e, c, rfl⟩ : ∃ (e : Fin 640000) (c : Fin 2), i = ix2 e c := ⟨i 0, i 1, eq_ix2 i⟩
  rw [lsmTerm_apply]
  exact congrArg (fun l => logSoftmax2 l c) (funext fun k => logits_apply _ _ _ _ hR e k)

end Cert.ReferenceIdeal.Bridge

end
-- ==== Proof.MathCore.lean ====
/-
  Where the node table, the weights and the biases hold real numbers, the two ways of computing the edge predictor's
  log-probabilities agree: softplus of the log-odds against the two-class log-softmax of the logits.
-/
import proofs.«406887_j58317065945293_3_alg».proof.Proof.Spec
import Mathlib.Analysis.SpecialFunctions.Log.Basic
import Mathlib.Data.EReal.Operations
import Mathlib.Algebra.BigOperators.Fin

noncomputable section

open scoped BigOperators

namespace Cert.EdgeSpec

open Idealize.ShloMosaic Idealize.ShloMosaic.ValueIdx

/-! ## Real numbers inside the extended reals -/

/-- A finite sum of real numbers, read in the extended reals, is the sum of the readings. -/
theorem coe_sum {ι : Type} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- The larger of two real numbers, read in the extended reals, is the larger of the readings. -/
theorem coe_max (x y : ℝ) : max (x : EReal) (y : EReal) = ((max x y : ℝ) : EReal) := by
  rcases le_total x y with hxy | hxy
  · rw [max_eq_right hxy, max_eq_right (EReal.coe_le_coe_iff.mpr hxy)]
  · rw [max_eq_left hxy, max_eq_left (EReal.coe_le_coe_iff.mpr hxy)]

/-! ## Softplus -/

/-- `max d 0 + log (1 + exp (-|d|)) = log (1 + exp d)`: for `d ≥ 0` factor `exp d` out of `1 + exp d`. -/
theorem softplus_real (d : ℝ) :
    max d 0 + Real.log (1 + Real.exp (-(max d (-d)))) = Real.log (1 + Real.exp d) := by
  rcases le_total 0 d with hd | hd
  · have h1 : max d 0 = d := max_eq_left hd
    have h2 : max d (-d) = d := max_eq_left (by linarith)
    rw [h1, h2]
    have h3 : 1 + Real.exp d = Real.exp d * (1 + Real.exp (-d)) := by
      rw [mul_add, mul_one, ← Real.exp_add, add_neg_cancel, Real.exp_zero, add_comm]
    rw [h3, Real.log_mul (Real.exp_pos d).ne' (by positivity), Real.log_exp]
  · have h1 : max d 0 = 0 := max_eq_right hd
    have h2 : max d (-d) = -d := max_eq_right (by linarith)
    rw [h1, h2, neg_neg, zero_add]

/-- At a real number `d` the kernel's `-softplus` is `-log (1 + exp d)`. -/
theorem negSoftplus_coe (d : ℝ) :
    negSoftplus (d : EReal) = ((-(Real.log (1 + Real.exp d)) : ℝ) : EReal) := by
  have hc : Ideal.cmp .one ((d : EReal) - 0) ((d : EReal) - 0) = 0#1 := by simp [Ideal.cmp]
  have e1 : max (d : EReal) (-(d : EReal)) = ((max d (-d) : ℝ) : EReal) := by
    rw [← EReal.coe_neg, coe_max]
  have e2 : max (d : EReal) 0 = ((max d 0 : ℝ) : EReal) := by rw [← EReal.coe_zero, coe_max]
  have e3 : Ideal.log1p (Ideal.exp (-((max d (-d) : ℝ) : EReal)))
      = ((Real.log (1 + Real.exp (-(max d (-d)))) : ℝ) : EReal) := by
    rw [← EReal.coe_neg, Ideal.exp_coe, Ideal.log1p, ← EReal.coe_one, ← EReal.coe_add, Ideal.log_coe,
      if_neg (not_le.mpr (by positivity))]
  unfold negSoftplus
  rw [hc, select_zero, sub_zero, zero_sub, zero_sub, e1, e3, e2, ← EReal.coe_add, ← EReal.coe_neg, softplus_real]

/-! ## Log-softmax over two classes -/

/-- The row maximum is the larger of the two logits. -/
theorem rowMax_eq (l : Fin 2 → EReal) : rowMax l = max (l 0) (l 1) := by
  unfold rowMax
  have hu : (Finset.univ : Finset (Fin 2)) = {0, 1} := by decide
  rw [hu, Finset.fold_insert (by decide), Finset.fold_singleton]
  simp

/-- Shifting both logits by any `m` leaves the log-softmax alone: `exp (a - m) + exp (b - m) = exp (a - m) (1 + exp (b - a))`. -/
theorem lsm_real (a b m : ℝ) :
    (a - m) - Real.log (Real.exp (a - m) + Real.exp (b - m)) = -Real.log (1 + Real.exp (b - a)) := by
  have h3 : Real.exp (a - m) + Real.exp (b - m) = Real.exp (a - m) * (1 + Real.exp (b - a)) := by
    rw [mul_add, mul_one, ← Real.exp_add]; congr 2; ring
  rw [h3, Real.log_mul (Real.exp_pos _).ne' (by positivity), Real.log_exp]; ring

/-- The reference's log-softmax at real logits `a`, `b`: `-log (1 + exp (b - a))` for class 0 and `-log (1 + exp (a - b))` for class 1. -/
theorem logSoftmax2_coe (l : Fin 2 → EReal) (a b : ℝ) (h0 : l 0 = (a : EReal)) (h1 : l 1 = (b : EReal)) :
    logSoftmax2 l 0 = ((-(Real.log (1 + Real.exp (b - a))) : ℝ) : EReal) ∧
    logSoftmax2 l 1 = ((-(Real.log (1 + Real.exp (a - b))) : ℝ) : EReal) := by
  have hm : rowMax l = ((max a b : ℝ) : EReal) := by rw [rowMax_eq, h0, h1, coe_max]
  have hs : Ideal.log (0 + ∑ k : Fin 2, Ideal.exp (l k - rowMax l))
      = ((Real.log (Real.exp (a - max a b) + Real.exp (b - max a b)) : ℝ) : EReal) := by
    rw [Fin.sum_univ_two, zero_add, hm, h0, h1, ← EReal.coe_sub, ← EReal.coe_sub, Ideal.exp_coe, Ideal.exp_coe,
      ← EReal.coe_add, Ideal.log_coe, if_neg (not_le.mpr (by positivity))]
  constructor
  · unfold logSoftmax2
    rw [hs, hm, h0, ← EReal.coe_sub, ← EReal.coe_sub, lsm_real]
  · unfold logSoftmax2
    rw [hs, hm, h1, ← EReal.coe_sub, ← EReal.coe_sub, add_comm (Real.exp _), lsm_real]

/-! ## The logits and the log-odds as real numbers -/

/-- A sum over the 256 features is the sum over the source half plus the sum over the target half. -/
theorem sum_halves {M : Type} [AddCommMonoid M] (f : Fin 256 → M) :
    ∑ k : Fin 256, f k
      = ∑ k : Fin 128, f (⟨k.val, by omega⟩ : Fin 256) + ∑ k : Fin 128, f (⟨128 + k.val, by omega⟩ : Fin 256) :=
  Fin.sum_univ_add (a := 128) (b := 128) f

/-- The weight difference, the projection, the log-odds and the logit where the inputs are real. -/
def dwR (Wr : SW.Idx → ℝ) (k : Fin 128) (j : Fin 2) : ℝ :=
  Wr (ix2 (1 : Fin 2) (⟨128 * j.val + k.val, by omega⟩ : Fin 256)) - Wr (ix2 (0 : Fin 2) (⟨128 * j.val + k.val, by omega⟩ : Fin 256))

def projR (hr : SH.Idx → ℝ) (Wr : SW.Idx → ℝ) (n : Fin 50000) (j : Fin 2) : ℝ :=
  ∑ k : Fin 128, hr (ix2 n k) * dwR Wr k j

def diffR (hr : SH.Idx → ℝ) (Wr : SW.Idx → ℝ) (br : SB.Idx → ℝ) (E : SE.Idx → BitVec 32) (e : Fin 640000) : ℝ :=
  projR hr Wr (node E e 0) 0 + projR hr Wr (node E e 1) 1 + (br (ix1 (1 : Fin 2)) - br (ix1 (0 : Fin 2)))

def logitR (hr : SH.Idx → ℝ) (Wr : SW.Idx → ℝ) (br : SB.Idx → ℝ) (E : SE.Idx → BitVec 32) (e : Fin 640000) (c : Fin 2) : ℝ :=
  (∑ k : Fin 128, hr (ix2 (node E e 0) k) * Wr (ix2 c (⟨k.val, by omega⟩ : Fin 256))
    + ∑ k : Fin 128, hr (ix2 (node E e 1) k) * Wr (ix2 c (⟨128 + k.val, by omega⟩ : Fin 256))) + br (ix1 c)

theorem dw_coe (Wr : SW.Idx → ℝ) (k : Fin 128) (j : Fin 2) :
    dw (fun i => (Wr i : EReal)) k j = ((dwR Wr k j : ℝ) : EReal) := rfl

theorem proj_coe (hr : SH.Idx → ℝ) (Wr : SW.Idx → ℝ) (n : Fin 50000) (j : Fin 2) :
    proj (fun i => (hr i : EReal)) (fun i => (Wr i : EReal)) n j = ((projR hr Wr n j : ℝ) : EReal) := by
  unfold proj projR
  simp only [dw_coe, ← EReal.coe_mul, coe_sum]

theorem diff_coe (hr : SH.Idx → ℝ) (Wr : SW.Idx → ℝ) (br : SB.Idx → ℝ) (E : SE.Idx → BitVec 32) (e : Fin 640000) :
    diff (fun i => (hr i : EReal)) (fun i => (Wr i : EReal)) (fun i => (br i : EReal)) E e
      = ((diffR hr Wr br E e : ℝ) : EReal) := by
  unfold diff diffR
  rw [proj_coe, proj_coe, ← EReal.coe_sub, ← EReal.coe_add, ← EReal.coe_add]

/-- The first 128 features are the source node's row, the last 128 the target node's. -/
theorem feat_lo (h : SH.Idx → EReal) (E : SE.Idx → BitVec 32) (e : Fin 640000) (k : Fin 128) :
    feat h E e (⟨k.val, by omega⟩ : Fin 256) = h (ix2 (node E e 0) k) := by
  unfold feat
  rw [dif_pos k.isLt]

theorem feat_hi (h : SH.Idx → EReal) (E : SE.Idx → BitVec 32) (e : Fin 640000) (k : Fin 128) :
    feat h E e (⟨128 + k.val, by omega⟩ : Fin 256) = h (ix2 (node E e 1) k) := by
  unfold feat
  rw [dif_neg (by simp)]
  congr 2
  exact Fin.ext (by simp)

theorem logit_coe (hr : SH.Idx → ℝ) (Wr : SW.Idx → ℝ) (br : SB.Idx → ℝ) (E : SE.Idx → BitVec 32) (e : Fin 640000) (c : Fin 2) :
    logit (fun i => (hr i : EReal)) (fun i => (Wr i : EReal)) (fun i => (br i : EReal)) E e c
      = ((logitR hr Wr br E e c : ℝ) : EReal) := by
  unfold logit logitR
  rw [sum_halves]
  simp only [feat_lo, feat_hi, ← EReal.coe_mul, coe_sum, ← EReal.coe_add]

/-- The log-odds are the difference of the two logits: term by term, `x * w1 - x * w0 = x * (w1 - w0)`. -/
theorem logitR_sub (hr : SH.Idx → ℝ) (Wr : SW.Idx → ℝ) (br : SB.Idx → ℝ) (E : SE.Idx → BitVec 32) (e : Fin 640000) :
    logitR hr Wr br E e 1 - logitR hr Wr br E e 0 = diffR hr Wr br E e := by
  unfold logitR diffR projR dwR
  simp only [Fin.val_zero, Fin.val_one, mul_zero, mul_one, zero_add, mul_sub, Finset.sum_sub_distrib]
  ring

/-! ## The two ways agree -/

/-- The kernel's way and the reference's way give one array, on real inputs. -/
theorem kOut_eq_refOut (h : SH.Idx → EReal) (W : SW.Idx → EReal) (b : SB.Idx → EReal) (E : SE.Idx → BitVec 32)
    (hh : IsReal h) (hW : IsReal W) (hb : IsReal b) : kOut h W b E = refOut h W b E := by
  obtain ⟨hr, rfl⟩ : ∃ hr : SH.Idx → ℝ, h = fun i => (hr i : EReal) :=
    ⟨fun i => (hh i).choose, funext fun i => (hh i).choose_spec⟩
  obtain ⟨Wr, rfl⟩ : ∃ Wr : SW.Idx → ℝ, W = fun i => (Wr i : EReal) :=
    ⟨fun i => (hW i).choose, funext fun i => (hW i).choose_spec⟩
  obtain ⟨br, rfl⟩ : ∃ br : SB.Idx → ℝ, b = fun i => (br i : EReal) :=
    ⟨fun i => (hb i).choose, funext fun i => (hb i).choose_spec⟩
  funext i
  obtain ⟨e, c, rfl⟩ : ∃ (e : Fin 640000) (c : Fin 2), i = ix2 e c := ⟨i 0, i 1, eq_ix2 i⟩
  have hl := logSoftmax2_coe (logit (fun i => (hr i : EReal)) (fun i => (Wr i : EReal)) (fun i => (br i : EReal)) E e)
    _ _ (logit_coe hr Wr br E e 0) (logit_coe hr Wr br E e 1)
  have hk : kOut (fun i => (hr i : EReal)) (fun i => (Wr i : EReal)) (fun i => (br i : EReal)) E (ix2 e c)
      = if c.val = 0 then negSoftplus ((diffR hr Wr br E e : ℝ) : EReal)
        else negSoftplus (0 - ((diffR hr Wr br E e : ℝ) : EReal)) := by
    rw [← diff_coe]; rfl
  have hrf : refOut (fun i => (hr i : EReal)) (fun i => (Wr i : EReal)) (fun i => (br i : EReal)) E (ix2 e c)
      = logSoftmax2 (logit (fun i => (hr i : EReal)) (fun i => (Wr i : EReal)) (fun i => (br i : EReal)) E e) c := rfl
  rw [hk, hrf]
  rcases Fin.exists_fin_two.mp ⟨c, rfl⟩ with rfl | rfl
  · rw [if_pos (show (0 : Fin 2).val = 0 from rfl), negSoftplus_coe, hl.1, logitR_sub]
  · rw [if_neg (show ¬ (1 : Fin 2).val = 0 by decide), zero_sub, ← EReal.coe_neg, negSoftplus_coe, hl.2, ← logitR_sub, neg_sub]

end Cert.EdgeSpec

end
-- ==== Proof.PreDecode.lean ====
/-
  What the precondition says, decoded: the three float inputs hold real numbers, and every entry of the edge list is a
  row number of the node table.
-/
import proofs.«406887_j58317065945293_3_alg».proof.Proof.Spec
import proofs.«406887_j58317065945293_3_alg».proof.Pre_finite_inputs
import Idealize.ShloMosaic.Lib.ReduceAll
import Idealize.ShloMosaic.Lib.StableHlo.Predicate

noncomputable section

open scoped BigOperators

namespace Cert.EdgeSpec

open Idealize.ShloMosaic Idealize.ShloMosaic.ValueIdx

variable [Cert.Pre_finite_inputs.Facts]

/-- The scalar shape has one index. -/
private theorem scalarIdx_subsingleton : Subsingleton Cert.Pre_finite_inputs.S_.Idx := ⟨fun a b => funext fun d => d.elim0⟩

/-- The word 0x7F800000 denotes +∞. -/
private theorem inf_bits : Ideal.ofBits .f32 0x7F800000#32 = (⊤ : EReal) := by simp [Ideal.ofBits, Ideal.ieee]

/-- An extended real whose absolute value, max x (-x), is below +∞ is a real number. -/
private theorem real_of_abs_lt_inf (x : EReal)
    (hx : Ideal.cmp .olt (max x (-x)) (Ideal.ofBits .f32 0x7F800000#32) = 1#1) : ∃ r : ℝ, x = (r : EReal) := by
  rw [inf_bits] at hx
  simp only [Ideal.cmp, StableHlo.Predicate.ofBool_eq_one_iff, decide_eq_true_eq] at hx
  induction x using EReal.rec with
  | bot => simp at hx
  | coe r => exact ⟨r, rfl⟩
  | top => simp at hx

/-- The printed precondition, all ones, gives the three finiteness facts and the index range. -/
theorem pre_decode (h : SH.Idx → EReal) (W : SW.Idx → EReal) (b : SB.Idx → EReal) (E : SE.Idx → BitVec 32)
    (hpre : Cert.Pre_finite_inputs.fn (F := Ideal) h W b E = fun _ => 1#1) :
    IsReal h ∧ IsReal W ∧ IsReal b ∧ InRange E := by
  have h1 := congrFun hpre ValueIdx.ix0
  dsimp only [Cert.Pre_finite_inputs.fn, Cert.Pre_finite_inputs.fn_part1] at h1
  -- the scalar result at its one index: a conjunction of four one-bit words, each of which is then 1
  haveI := scalarIdx_subsingleton
  obtain ⟨h123, h4⟩ := IntOp.andi_eq_one.1 h1
  obtain ⟨h12, h3⟩ := IntOp.andi_eq_one.1 h123
  obtain ⟨hh, hW⟩ := IntOp.andi_eq_one.1 h12
  -- a conjunction over every index that came out 1 met a 1 at each index
  refine ⟨fun i => ?_, fun i => ?_, fun i => ?_, fun i => ?_⟩
  · exact real_of_abs_lt_inf _ (Host.reduce_andi_all _ _ _ _ _ hh i)
  · exact real_of_abs_lt_inf _ (Host.reduce_andi_all _ _ _ _ _ hW i)
  · exact real_of_abs_lt_inf _ (Host.reduce_andi_all _ _ _ _ _ h3 i)
  · have hi := Host.reduce_andi_all _ _ _ _ _ h4 i
    obtain ⟨hge, hlt⟩ := IntOp.andi_eq_one.1 hi
    -- signed comparisons of words are comparisons of the integers they denote
    have hge' : (0#32 : BitVec 32).toInt ≤ (E i).toInt := IntOp.cmpi_sge.1 hge
    have hlt' : (E i).toInt < (50000#32 : BitVec 32).toInt := IntOp.cmpi_slt.1 hlt
    have e0 : (0#32 : BitVec 32).toInt = 0 := by decide
    have e5 : (50000#32 : BitVec 32).toInt = 50000 := by decide
    rw [e0] at hge'
    rw [e5] at hlt'
    exact ⟨hge', hlt'⟩

end Cert.EdgeSpec

end
-- ==== Proof.lean ====
/-
  An edge predictor over a graph: for each of 640000 edges `(u, v)`, the two-class log-softmax of
  `W · concat(h[u], h[v]) + b`, with `h` the 50000 x 128 node table.

  The reference computes both logits of every edge and takes the log-softmax over the class axis. The kernel program uses
  that a two-class log-softmax depends on the logits only through their difference `d`: it projects every NODE once on
  the two weight-difference columns (a matmul region), adds the source node's first projection, the target node's second
  and the bias difference per edge, and finishes with `-softplus d` and `-softplus (-d)` (a pointwise region). Over the
  extended reals the two agree wherever `h`, `W` and `b` hold real numbers (then every sum can be split and regrouped
  and the logarithm's argument is positive) and every entry of the edge list is a row number of the node table (the
  kernel clamps an entry into the table where the reference wraps a negative one around: they name one row exactly
  on the rows of the table).

  The three frames: the kernel program's two, word-level and idealized, are the launch-side runs of its two regions
  among the host operations; the reference's is its run with the result dropped. The idealization rewrote nothing.
  The value claim: the kernel program's result buffer is `kOut` of the arguments (`KernelValue`: the last boundary's
  contents walked back through both regions and the host operations around them), the reference's is `refOut` of the
  arguments (`RefValue`), and `kOut = refOut` under the precondition (`PreDecode`, `MathCore`).
-/
import proofs.«406887_j58317065945293_3_alg».proof.Defs
import proofs.«406887_j58317065945293_3_alg».proof.Proof.Gen.Kernel
import proofs.«406887_j58317065945293_3_alg».proof.Proof.Gen.Kernel.Frame
import proofs.«406887_j58317065945293_3_alg».proof.Proof.Gen.KernelIdeal
import proofs.«406887_j58317065945293_3_alg».proof.Proof.Gen.KernelIdeal.Frame
import proofs.«406887_j58317065945293_3_alg».proof.Proof.Gen.ReferenceIdeal
import proofs.«406887_j58317065945293_3_alg».proof.Proof.Gen.Pre_finite_inputs
import proofs.«406887_j58317065945293_3_alg».proof.Proof.KRun
import proofs.«406887_j58317065945293_3_alg».proof.Proof.RefRun
import proofs.«406887_j58317065945293_3_alg».proof.Proof.KernelValue
import proofs.«406887_j58317065945293_3_alg».proof.Proof.RefValue
import proofs.«406887_j58317065945293_3_alg».proof.Proof.MathCore
import proofs.«406887_j58317065945293_3_alg».proof.Proof.PreDecode
import Idealize.ShloMosaic.Adequacy
import Idealize.ShloMosaic.Init

noncomputable section

namespace Cert.Proof

open Idealize.ShloMosaic Idealize.SL.Sem Cert.EdgeSpec

attribute [local instance] Cert.Kernel.Gen.facts Cert.KernelIdeal.Gen.facts Cert.ReferenceIdeal.Gen.facts Cert.Pre_finite_inputs.Gen.facts

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at `kOut` of the kernel program's arguments: the kernel program by its stages, the reference at
    `refOut` of its own arguments, which agree with the kernel program's and on which the precondition makes the two ways equal. -/
theorem algebraic : Cert.algebraic_KernelIdeal_ReferenceIdeal := by
  intro m ρ m' ρ' hpre hagree
  refine ⟨fun c => kOut (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · exact (θ_run Cert.KernelIdeal.defs _ _).mono
      (fun _ h c => ⟨(h c).1.trans (Cert.KernelIdeal.Bridge.kernel_value m ρ c), (h c).2⟩)
      (Cert.KernelIdeal.GenV.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hh, hW, hb, hE⟩ := pre_decode _ _ _ _ (hpre c)
    obtain ⟨a0, a1, a2, a3⟩ := hagree c
    have hE' : InRange (m' ((c.tc : Thread _ _).loc Cert.ReferenceIdeal.main_arg3)) := by rw [a3]; exact hE
    refine (Cert.ReferenceIdeal.Bridge.ref_value (StableHlo.launchContents m' c) hE').trans ?_
    show refOut (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3)) = _
    rw [a0, a1, a2, a3]
    exact (kOut_eq_refOut _ _ _ _ hh hW hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
